-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_288" .f32 0x3B638E39#32 ((1 / 288 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x288x4096x2 : Shape := ⟨4, ![16, 288, 4096, 2]⟩
abbrev S4096 : Shape := ⟨1, ![4096]⟩
abbrev S_ : Shape := ⟨0, ![]⟩

class Facts : Prop where
  bcast_S_S16x288x4096x2 : S_.BroadcastsInDim S16x288x4096x2 (![] : Fin 0 → Fin S16x288x4096x2.rank)
  reducesTo_S16x288x4096x2_S_d0_1_2_3 : S16x288x4096x2.ReducesTo [0, 1, 2, 3] S_
  h_S_ : 0 < S_.numel

variable [Facts]

def fn {F : FTy → Type} [FloatOps F] (main_arg0 : FVec F S16x288x4096x2 .f32) (main_arg1 : IVec S4096 32) : IVec S_ 1 :=
  let main_v0 : FVec F S16x288x4096x2 .f32 := Host.absf main_arg0
  let main_cst : FVec F S_ .f32 := constant S_ .f32 0x7F800000#32
  let main_v1 : FVec F S16x288x4096x2 .f32 := broadcastInDim S16x288x4096x2 ![] bcast_S_S16x288x4096x2 main_cst
  let main_v2 : IVec S16x288x4096x2 1 := cmpf .olt main_v0 main_v1
  let main_c : IVec S_ 1 := constantI S_ 1 1#1
  let main_v3 : IVec S_ 1 := (fun x v => Host.reduce IntOp.andi x v reducesTo_S16x288x4096x2_S_d0_1_2_3 h_S_) main_v2 main_c
  main_v3
-- ==== Kernel.lean ====
abbrev S16x288x4096x2 : Shape := ⟨4, ![16, 288, 4096, 2]⟩
abbrev S4096 : Shape := ⟨1, ![4096]⟩
abbrev S16x288x4096x1 : Shape := ⟨4, ![16, 288, 4096, 1]⟩
abbrev S16x288x4096 : Shape := ⟨3, ![16, 288, 4096]⟩
abbrev S1x1 : Shape := ⟨2, ![1, 1]⟩
abbrev S1x288x4096 : Shape := ⟨3, ![1, 288, 4096]⟩
abbrev S1x96x4096 : Shape := ⟨3, ![1, 96, 4096]⟩
abbrev S96x4096 : Shape := ⟨2, ![96, 4096]⟩
abbrev S96 : Shape := ⟨1, ![96]⟩
abbrev S96x1 : Shape := ⟨2, ![96, 1]⟩
abbrev S1 : Shape := ⟨1, ![1]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S16x10x4096 : Shape := ⟨3, ![16, 10, 4096]⟩
abbrev S16x10x16 : Shape := ⟨3, ![16, 10, 16]⟩
abbrev S1x10x4096 : Shape := ⟨3, ![1, 10, 4096]⟩
abbrev S1x10x16 : Shape := ⟨3, ![1, 10, 16]⟩
abbrev S1x4096 : Shape := ⟨2, ![1, 4096]⟩
abbrev S10x4096 : Shape := ⟨2, ![10, 4096]⟩
abbrev S10x16 : Shape := ⟨2, ![10, 16]⟩

abbrev nBuf : Space → Nat
  | .hbm => 22
  | .vmem => 13
  | .smem => 0
  | _ => 0

abbrev bufTy : (tb : Table) → Fin (tcTables nBuf tb) → BufTy
  | .hbm, ⟨0, _⟩ => ⟨S16x288x4096x2, .f32⟩
  | .hbm, ⟨1, _⟩ => ⟨S4096, .i32⟩
  | .hbm, ⟨2, _⟩ => ⟨S16x288x4096x1, .f32⟩
  | .hbm, ⟨3, _⟩ => ⟨S16x288x4096, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S16, .i32⟩
  | .hbm, ⟨11, _⟩ => ⟨S4096x1, .i32⟩
  | .hbm, ⟨12, _⟩ => ⟨S1x16, .i32⟩
  | .hbm, ⟨13, _⟩ => ⟨S4096x16, .i32⟩
  | .hbm, ⟨14, _⟩ => ⟨S4096x16, .i32⟩
  | .hbm, ⟨15, _⟩ => ⟨S4096x16, .i1⟩
  | .hbm, ⟨16, _⟩ => ⟨S4096x16, .f32⟩
  | .hbm, ⟨17, _⟩ => ⟨S_, .f32⟩
  | .hbm, ⟨18, _⟩ => ⟨S16, .f32⟩
  | .hbm, ⟨19, _⟩ => ⟨S1x16, .f32⟩
  | .hbm, ⟨20, _⟩ => ⟨S16x10x4096, .f32⟩
  | .hbm, ⟨21, _⟩ => ⟨S16x10x16, .f32⟩
  | .local _ .vmem, ⟨0, _⟩ => ⟨S1x288x4096, .f32⟩
  | .local _ .vmem, ⟨1, _⟩ => ⟨S1x288x4096, .f32⟩
  | .local _ .vmem, ⟨2, _⟩ => ⟨S1x1, .f32⟩
  | .local _ .vmem, ⟨3, _⟩ => ⟨S1x1, .f32⟩
  | .local _ .vmem, ⟨4, _⟩ => ⟨S1x288x4096, .f32⟩
  | .local _ .vmem, ⟨5, _⟩ => ⟨S1x288x4096, .f32⟩
  | .local _ .vmem, ⟨6, _⟩ => ⟨S1x1, .f32⟩
  | .local _ .vmem, ⟨7, _⟩ => ⟨S4096x16, .f32⟩
  | .local _ .vmem, ⟨8, _⟩ => ⟨S1x16, .f32⟩
  | .local _ .vmem, ⟨9, _⟩ => ⟨S1x10x4096, .f32⟩
  | .local _ .vmem, ⟨10, _⟩ => ⟨S1x10x4096, .f32⟩
  | .local _ .vmem, ⟨11, _⟩ => ⟨S1x10x16, .f32⟩
  | .local _ .vmem, ⟨12, _⟩ => ⟨S1x10x16, .f32⟩
  | _, _ => ⟨S16x288x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

def k0_mult1 : BitVec 32 :=
  let c0_i32_2 : BitVec 32 := 0#32
  let c96_i32 : BitVec 32 := 96#32
  let v5 : BitVec 32 := Scalar.muli c0_i32_2 c96_i32
  v5
def k0_off1 (c0_i32_2 : BitVec 32) : Fin 3 → Nat :=
  let c0 : Index := 0#32
  let c96_i32 : BitVec 32 := 96#32
  let v5 : BitVec 32 := Scalar.muli c0_i32_2 c96_i32
  let v6 : BitVec 32 := v5
  let v7 : Index := Scalar.indexCast v6
  let c0_3 : Index := 0#32
  ![0, v7.toNat, 0]
def k0_mult2 : BitVec 32 :=
  let c1_i32 : BitVec 32 := 1#32
  let c96_i32_10 : BitVec 32 := 96#32
  let v26 : BitVec 32 := Scalar.muli c1_i32 c96_i32_10
  v26
def k0_mult3 : BitVec 32 :=
  let c2_i32 : BitVec 32 := 2#32
  let c96_i32_19 : BitVec 32 := 96#32
  let v47 : BitVec 32 := Scalar.muli c2_i32 c96_i32_19
  v47
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def k1_mult1 : BitVec 32 :=
  let c0_i32 : BitVec 32 := 0#32
  let c96_i32 : BitVec 32 := 96#32
  let v3 : BitVec 32 := Scalar.muli c0_i32 c96_i32
  v3
def k1_off1 (c0_i32 : BitVec 32) : Fin 3 → Nat :=
  let c0_1 : Index := 0#32
  let c96_i32 : BitVec 32 := 96#32
  let v3 : BitVec 32 := Scalar.muli c0_i32 c96_i32
  let v4 : BitVec 32 := v3
  let v5 : Index := Scalar.indexCast v4
  let c0_2 : Index := 0#32
  ![0, v5.toNat, 0]
def k1_mult2 : BitVec 32 :=
  let c1_i32 : BitVec 32 := 1#32
  let c96_i32_5 : BitVec 32 := 96#32
  let v15 : BitVec 32 := Scalar.muli c1_i32 c96_i32_5
  v15
def k1_mult3 : BitVec 32 :=
  let c2_i32 : BitVec 32 := 2#32
  let c96_i32_10 : BitVec 32 := 96#32
  let v27 : BitVec 32 := Scalar.muli c2_i32 c96_i32_10
  v27
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x288x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x10x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x10x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S16x288x4096x2_S16x288x4096x1_0_0_0_0 : S16x288x4096x2.Slices ![0, 0, 0, 0] S16x288x4096x1
  shapeCasts_S16x288x4096x1_S16x288x4096 : S16x288x4096x1.ShapeCasts S16x288x4096
  inb_S1x1_S1x1_0_0 : ∀ a, (![0, 0] : Fin 2 → Nat) a + S1x1.size a ≤ S1x1.size a
  h_S1x1 : 0 < S1x1.numel
  h_S1x96x4096 : 0 < S1x96x4096.numel
  shapeCasts_S1x96x4096_S96x4096 : S1x96x4096.ShapeCasts S96x4096
  reduces_S96x4096_S96 : S96x4096.Reduces [1] S96
  shapeCasts_S96_S96x1 : S96.ShapeCasts S96x1
  reduces_S96x1_S1 : S96x1.Reduces [0] S1
  shapeCasts_S1_S1x1 : S1.ShapeCasts S1x1
  natLt_1_32 : 1 < 32
  shapeCasts_S1x1_S1x1 : S1x1.ShapeCasts S1x1
  bcast_S_S1x1 : S_.BroadcastsInDim S1x1 (![] : Fin 0 → Fin S1x1.rank)
  bcast_S4096_S4096x1_0 : S4096.BroadcastsInDim S4096x1 (![0] : Fin 1 → Fin S4096x1.rank)
  bcast_S16_S1x16_1 : S16.BroadcastsInDim S1x16 (![1] : Fin 1 → Fin S1x16.rank)
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  reducesTo_S4096x16_S16_d0 : S4096x16.ReducesTo [0] S16
  h_S_ : 0 < S_.numel
  inpos_S1x1_p0_0 : ∀ a, (![0, 0] : Fin 2 → Nat) a < S1x1.size a
  reduces_S96x4096_S4096 : S96x4096.Reduces [0] S4096
  shapeCasts_S4096_S1x4096 : S4096.ShapeCasts S1x4096
  shapeCasts_S1x4096_S1x4096 : S1x4096.ShapeCasts S1x4096
  broadcasts_S1x4096_S10x4096 : S1x4096.Broadcasts S10x4096
  inb_S1x10x4096_S1x10x4096_0_0_0 : ∀ a, (![0, 0, 0] : Fin 3 → Nat) a + S1x10x4096.size a ≤ S1x10x4096.size a
  h_S1x10x4096 : 0 < S1x10x4096.numel
  shapeCasts_S1x10x4096_S10x4096 : S1x10x4096.ShapeCasts S10x4096
  shapeCasts_S10x4096_S1x10x4096 : S10x4096.ShapeCasts S1x10x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10x16 : S1x16.Broadcasts S10x16
  inb_S1x10x16_S1x10x16_0_0_0 : ∀ a, (![0, 0, 0] : Fin 3 → Nat) a + S1x10x16.size a ≤ S1x10x16.size a
  h_S1x10x16 : 0 < S1x10x16.numel
  shapeCasts_S1x10x16_S10x16 : S1x10x16.ShapeCasts S10x16
  shapeCasts_S10x16_S1x10x16 : S10x16.ShapeCasts S1x10x16
  dot_S1x4096_S4096x16_S1x16_1_0_0_1_n_n_wf : DotDims.WF S1x4096 S4096x16 S1x16 [1] [0] [0] [1] [] []
  hrank0 : 0 < grid0.rank
  k0_mult1_dvd : 8 ∣ k0_mult1.toNat
  k0_off1_inb : ∀ (r : Fin 3), ∀ a, (k0_off1 (BitVec.ofNat 32 r.val)) a + S1x96x4096.size a ≤ S1x288x4096.size a
  k0_mult2_dvd : 8 ∣ k0_mult2.toNat
  k0_mult3_dvd : 8 ∣ k0_mult3.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x4096.size a ≤ S16x288x4096.size a
  hwx0_0 : ∀ i : grid0.Coords, EltTy.bits .f32 = 32 ∨ (Rect.block (s := S16x288x4096) S1x288x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_mult1_dvd : 8 ∣ k1_mult1.toNat
  k1_off1_inb : ∀ (r : Fin 3), ∀ a, (k1_off1 (BitVec.ofNat 32 r.val)) a + S1x96x4096.size a ≤ S1x288x4096.size a
  k1_mult2_dvd : 8 ∣ k1_mult2.toNat
  k1_mult3_dvd : 8 ∣ k1_mult3.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x288x4096.size a ≤ S16x288x4096.size a
  hwx1_0 : ∀ i : grid1.Coords, EltTy.bits .f32 = 32 ∨ (Rect.block (s := S16x288x4096) S1x288x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x16.size a ≤ S4096x16.size a
  hwx1_2 : ∀ i : grid1.Coords, EltTy.bits .f32 = 32 ∨ (Rect.block (s := S4096x16) S4096x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x10x4096.size a ≤ S16x10x4096.size a
  hwx1_4 : ∀ i : grid1.Coords, EltTy.bits .f32 = 32 ∨ (Rect.block (s := S16x10x4096) S1x10x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x10x16.size a ≤ S16x10x16.size a
  hwx1_5 : ∀ i : grid1.Coords, EltTy.bits .f32 = 32 ∨ (Rect.block (s := S16x10x16) S1x10x16.size (cc1_transform_5 i) (hinb1_5 i)).WholeWords (EltTy.packing .f32)

variable [Facts₀]

def dot_S1x4096_S4096x16_S1x16_1_0_0_1_n_n : DotDims S1x4096 S4096x16 S1x16 where
  lhsContracting := [1]
  rhsContracting := [0]
  lhsNonContracting := [0]
  rhsNonContracting := [1]
  lhsBatch := []
  rhsBatch := []
  wf := dot_S1x4096_S4096x16_S1x16_1_0_0_1_n_n_wf

abbrev win0_0 : Pipeline.Window sig grid0 :=
  Pipeline.Window.ofSpec (Memref.whole main_v1) S1x288x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x288x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4096x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S1x10x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S1x10x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x288x4096x2 : Shape := ⟨4, ![16, 288, 4096, 2]⟩
abbrev S4096 : Shape := ⟨1, ![4096]⟩
abbrev S16x288x4096x1 : Shape := ⟨4, ![16, 288, 4096, 1]⟩
abbrev S16x288x4096 : Shape := ⟨3, ![16, 288, 4096]⟩
abbrev S_ : Shape := ⟨0, ![]⟩
abbrev S16x4096 : Shape := ⟨2, ![16, 4096]⟩
abbrev S16x1x4096 : Shape := ⟨3, ![16, 1, 4096]⟩
abbrev S1x16x1x1x1x4096 : Shape := ⟨6, ![1, 16, 1, 1, 1, 4096]⟩
abbrev S1x16x10x1x1x4096 : Shape := ⟨6, ![1, 16, 10, 1, 1, 4096]⟩
abbrev S16x10x4096 : Shape := ⟨3, ![16, 10, 4096]⟩
abbrev S16 : Shape := ⟨1, ![16]⟩
abbrev S4096x1 : Shape := ⟨2, ![4096, 1]⟩
abbrev S4096x16x10 : Shape := ⟨3, ![4096, 16, 10]⟩
abbrev S16x16x10 : Shape := ⟨3, ![16, 16, 10]⟩
abbrev S16x1x1 : Shape := ⟨3, ![16, 1, 1]⟩
abbrev S16x10x16 : Shape := ⟨3, ![16, 10, 16]⟩

abbrev nBuf : Space → Nat
  | .hbm => 48
  | .vmem => 0
  | .smem => 0
  | _ => 0

abbrev bufTy : (tb : Table) → Fin (tcTables nBuf tb) → BufTy
  | .hbm, ⟨0, _⟩ => ⟨S16x288x4096x2, .f32⟩
  | .hbm, ⟨1, _⟩ => ⟨S4096, .i32⟩
  | .hbm, ⟨2, _⟩ => ⟨S16x288x4096x1, .f32⟩
  | .hbm, ⟨3, _⟩ => ⟨S16x288x4096, .f32⟩
  | .hbm, ⟨4, _⟩ => ⟨S_, .f32⟩
  | .hbm, ⟨5, _⟩ => ⟨S16x288x4096, .f32⟩
  | .hbm, ⟨6, _⟩ => ⟨S16x288x4096, .i1⟩
  | .hbm, ⟨7, _⟩ => ⟨S_, .f32⟩
  | .hbm, ⟨8, _⟩ => ⟨S_, .f32⟩
  | .hbm, ⟨9, _⟩ => ⟨S16x288x4096, .f32⟩
  | .hbm, ⟨10, _⟩ => ⟨S16x288x4096, .f32⟩
  | .hbm, ⟨11, _⟩ => ⟨S_, .f32⟩
  | .hbm, ⟨12, _⟩ => ⟨S_, .f32⟩
  | .hbm, ⟨13, _⟩ => ⟨S16x288x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x288x4096, .f32⟩
  | .hbm, ⟨20, _⟩ => ⟨S16x288x4096, .f32⟩
  | .hbm, ⟨21, _⟩ => ⟨S_, .f32⟩
  | .hbm, ⟨22, _⟩ => ⟨S16x4096, .f32⟩
  | .hbm, ⟨23, _⟩ => ⟨S16x1x4096, .f32⟩
  | .hbm, ⟨24, _⟩ => ⟨S_, .f32⟩
  | .hbm, ⟨25, _⟩ => ⟨S16x1x4096, .f32⟩
  | .hbm, ⟨26, _⟩ => ⟨S16x1x4096, .f32⟩
  | .hbm, ⟨27, _⟩ => ⟨S1x16x1x1x1x4096, .f32⟩
  | .hbm, ⟨28, _⟩ => ⟨S1x16x10x1x1x4096, .f32⟩
  | .hbm, ⟨29, _⟩ => ⟨S16x10x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S16, .f32⟩
  | .hbm, ⟨34, _⟩ => ⟨S4096x1, .i32⟩
  | .hbm, ⟨35, _⟩ => ⟨S16, .f32⟩
  | .hbm, ⟨36, _⟩ => ⟨S4096x16x10, .f32⟩
  | .hbm, ⟨37, _⟩ => ⟨S_, .f32⟩
  | .hbm, ⟨38, _⟩ => ⟨S16x16x10, .f32⟩
  | .hbm, ⟨39, _⟩ => ⟨S4096x1, .i32⟩
  | .hbm, ⟨40, _⟩ => ⟨S16x16x10, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16x1x1, .f32⟩
  | .hbm, ⟨45, _⟩ => ⟨S16x16x10, .f32⟩
  | .hbm, ⟨46, _⟩ => ⟨S16x16x10, .f32⟩
  | .hbm, ⟨47, _⟩ => ⟨S16x10x16, .f32⟩
  | _, _ => ⟨S16x288x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  slices_S16x288x4096x2_S16x288x4096x1_0_0_0_0 : S16x288x4096x2.Slices ![0, 0, 0, 0] S16x288x4096x1
  shapeCasts_S16x288x4096x1_S16x288x4096 : S16x288x4096x1.ShapeCasts S16x288x4096
  bcast_S_S16x288x4096 : S_.BroadcastsInDim S16x288x4096 (![] : Fin 0 → Fin S16x288x4096.rank)
  reducesTo_S16x288x4096_S_d0_1_2 : S16x288x4096.ReducesTo [0, 1, 2] S_
  h_S_ : 0 < S_.numel
  reducesTo_S16x288x4096_S16x4096_d1 : S16x288x4096.ReducesTo [1] S16x4096
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  shapeCasts_S16x1x4096_S1x16x1x1x1x4096 : S16x1x4096.ShapeCasts S1x16x1x1x1x4096
  bcast_S1x16x1x1x1x4096_S1x16x10x1x1x4096_0_1_2_3_4_5 : S1x16x1x1x1x4096.BroadcastsInDim S1x16x10x1x1x4096 (![0, 1, 2, 3, 4, 5] : Fin 6 → Fin S1x16x10x1x1x4096.rank)
  shapeCasts_S1x16x10x1x1x4096_S16x10x4096 : S1x16x10x1x1x4096.ShapeCasts S16x10x4096
  bcast_S_S4096 : S_.BroadcastsInDim S4096 (![] : Fin 0 → Fin S4096.rank)
  bcast_S_S16 : S_.BroadcastsInDim S16 (![] : Fin 0 → Fin S16.rank)
  bcast_S4096_S4096x1_0 : S4096.BroadcastsInDim S4096x1 (![0] : Fin 1 → Fin S4096x1.rank)
  transposes_S16x10x4096_S4096x16x10_2_0_1 : S16x10x4096.Transposes [2, 0, 1] S4096x16x10
  bcast_S_S16x16x10 : S_.BroadcastsInDim S16x16x10 (![] : Fin 0 → Fin S16x16x10.rank)
  bcast_S16_S16x1x1_0 : S16.BroadcastsInDim S16x1x1 (![0] : Fin 1 → Fin S16x1x1.rank)
  bcast_S16x1x1_S16x16x10_0_1_2 : S16x1x1.BroadcastsInDim S16x16x10 (![0, 1, 2] : Fin 3 → Fin S16x16x10.rank)
  transposes_S16x16x10_S16x10x16_1_2_0 : S16x16x10.Transposes [1, 2, 0] S16x10x16
  scatter_S16_S4096x1_S4096_n_0_0_1_wf : ScatterDims.WF S16 S4096x1 S4096 [] [0] [0] 1
  scatter_S16x16x10_S4096x1_S4096x16x10_12_0_0_1_wf : ScatterDims.WF S16x16x10 S4096x1 S4096x16x10 [1, 2] [0] [0] 1

variable [Facts₀]

def scatter_S16_S4096x1_S4096_n_0_0_1 : ScatterDims S16 S4096x1 S4096 where
  updateWindowDims := []
  insertedWindowDims := [0]
  scatterDimsToOperandDims := [0]
  indexVectorDim := 1
  wf := scatter_S16_S4096x1_S4096_n_0_0_1_wf
def scatter_S16x16x10_S4096x1_S4096x16x10_12_0_0_1 : ScatterDims S16x16x10 S4096x1 S4096x16x10 where
  updateWindowDims := [1, 2]
  insertedWindowDims := [0]
  scatterDimsToOperandDims := [0]
  indexVectorDim := 1
  wf := scatter_S16x16x10_S4096x1_S4096x16x10_12_0_0_1_wf

class Facts : Prop extends Facts₀ where

variable [Facts]
-- ==== Proof.Spec.lean ====
/-
  What both programs compute, as functions on the extended reals over plain finite index types.

  The data is `x b t n` (batch `b` of 16, time step `t` of 288, node `n` of 4096: feature 0 of the input) and a
  cluster id `cid n` per node (a 32-bit word; any word is allowed). An entry equal to `-1` is MISSING.
  For one batch row `y t n`:
    * `rowTotal y` is the sum of the entries that are present and `rowCount y` how many are present;
    * `rowMean y g n` is the mean over the 288 time steps of node `n`'s entries, a missing one replaced by `g`: the
      sum times the exact rational `1/288`;
    * `rowReg y g w k r` is the sum over the nodes of `rowMean y g n` weighted by `w n r`, divided by `max (k r) 1`.
  For the whole input: `total x` and `count x` add the rows' totals and counts, `gmean x = total x / max (count x) 1`
  is the global mean that replaces a missing entry, `tmean x b n` the time mean of node `n` in batch `b` under it;
  node `n` is a member of region `r` (of 16) when its id is the word `r` (`member cid n r` is `1` then, else `0`; a node
  whose id is no region's word is a member of none), `members cid r` counts them, and `regmean x cid b r` is the sum
  of `tmean x b n` over the members of `r` divided by `max (members cid r) 1`.
-/
import Idealize.ShloMosaic.PureOps.Ideal
import Idealize.ShloMosaic.Lib.ValueIdx

noncomputable section

namespace Cert.RegionMean

open Idealize.ShloMosaic

/-- The three float words the programs spell: `-1.0` (the missing marker), `0.0` and `1.0`. -/
abbrev negOne : EReal := Ideal.ofBits .f32 0xBF800000#32
abbrev zeroW : EReal := Ideal.ofBits .f32 0x00000000#32
abbrev oneW : EReal := Ideal.ofBits .f32 0x3F800000#32

/-- The presence bit of an entry: set when the entry differs from `-1`. -/
def ok (v : EReal) : BitVec 1 := Ideal.cmp .one v negOne
/-- A present entry as it is, a missing one as `0`. -/
def kept (v : EReal) : EReal := Scalar.select (ok v) v zeroW
/-- `1` for a present entry and `0` for a missing one. -/
def present (v : EReal) : EReal := (((ok v).toNat : ℝ) : EReal)
/-- A present entry as it is, a missing one as `g`. -/
def filledWith (g v : EReal) : EReal := Scalar.select (ok v) v g

section Row
variable (y : Fin 288 → Fin 4096 → EReal)
/-- The sum of the present entries of one batch row, and their number. -/
def rowTotal : EReal := ∑ t, ∑ n, kept (y t n)
def rowCount : EReal := ∑ t, ∑ n, present (y t n)
/-- The time mean of node `n` of the row, a missing entry replaced by `g`. -/
def rowMean (g : EReal) (n : Fin 4096) : EReal := (∑ t, filledWith g (y t n)) * (((1 / 288 : ℝ)) : EReal)
/-- The row's region mean over membership weights `w` and member counts `k`. -/
def rowReg (g : EReal) (w : Fin 4096 → Fin 16 → EReal) (k : Fin 16 → EReal) (r : Fin 16) : EReal :=
  Ideal.div (∑ n, rowMean y g n * w n r) (max (k r) oneW)
end Row

section Whole
variable (x : Fin 16 → Fin 288 → Fin 4096 → EReal)
/-- The sum of all present entries, and their number. -/
def total : EReal := ∑ b, rowTotal (x b)
def count : EReal := ∑ b, rowCount (x b)
/-- The global mean of the present entries (the sum itself when none is present). -/
def gmean : EReal := Ideal.div (total x) (max (count x) oneW)
/-- The time mean of node `n` in batch `b`, a missing entry replaced by the global mean. -/
def tmean (b : Fin 16) (n : Fin 4096) : EReal := rowMean (x b) (gmean x) n
end Whole

section Regions
variable (cid : Fin 4096 → BitVec 32)
/-- The membership weight of node `n` in region `r`: `1` when the node's id is the word `r`, else `0`. -/
def member (n : Fin 4096) (r : Fin 16) : EReal :=
  ((((IntOp.cmpi .eq (cid n) (BitVec.ofNat 32 r.val)).toNat : ℕ) : ℝ) : EReal)
/-- How many nodes are members of region `r`. -/
def members (r : Fin 16) : EReal := ∑ n, member cid n r
end Regions

/-- The mean over region `r`'s members of their time means in batch `b`. -/
def regmean (x : Fin 16 → Fin 288 → Fin 4096 → EReal) (cid : Fin 4096 → BitVec 32) (b r : Fin 16) : EReal :=
  rowReg (x b) (gmean x) (member cid) (members cid) r

end Cert.RegionMean

end
-- ==== Proof.Glue.lean ====
/-
  The arrays the two passes find on entry, read at an index.

  Before the first pass the host takes feature 0 of the `[16, 288, 4096, 2]` input and drops the unit axis: entry
  `(b, t, n)` of the data array is the input at `(b, t, n, 0)`. The first pass only reads that array and the host
  operations after it do not write it, so the second pass finds it unchanged. Between the passes the host divides the
  first pass's total by the larger of its count and `1` (the global mean); compares each node's id with the words
  `0 … 15`, the comparison's bit read as the number `1` or `0` (the membership weight of node `n` in region `r`); and
  sums each of the 16 columns of weights over the 4096 nodes from the zero word, which is `0` (the member counts).
-/
import proofs.«426560_j34574486733038_2_alg».proof.Proof.Gen.KernelIdeal.Frame
import proofs.«426560_j34574486733038_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.Tactic

set_option maxRecDepth 16384

noncomputable section

namespace Cert.KernelIdeal.Glue

open Cert.KernelIdeal Cert.KernelIdeal.Gen Cert.RegionMean
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Feature 0 of the input array as data `x b t n`, and the id array as `cid n`. -/
abbrev dataOf (c : Dev nD) : Fin 16 → Fin 288 → Fin 4096 → EReal :=
  fun b t n => (m ((c.tc : Thread nD τ).loc main_arg0) : Vec Ideal S16x288x4096x2 .f32) (ix4 b t n 0)
abbrev idsOf (c : Dev nD) : Fin 4096 → BitVec 32 :=
  fun n => (m ((c.tc : Thread nD τ).loc main_arg1) : IVec S4096 32) (ix1 n)

/-- At region 0's entry the sliced, reshaped array is the two host operations applied to the launch contents. -/
private theorem v1_eq (c : Dev nD) :
    (V1 m ρ c main_v1 : Vec Ideal S16x288x4096 .f32)
      = shapeCast S16x288x4096 (extractStridedSlice S16x288x4096x1 ![0, 0, 0, 0]
          (m ((c.tc : Thread nD τ).loc main_arg0) : Vec Ideal S16x288x4096x2 .f32)
          slices_S16x288x4096x2_S16x288x4096x1_0_0_0_0) shapeCasts_S16x288x4096x1_S16x288x4096 := by
  show StableHlo.after hostOps0 (W0 m ρ c) (Proc.devRef .tc main_v1) = _
  after_results
  rfl

/-- The slice of feature 0 followed by the drop of the trailing unit axis, read at `(b, t, n)`: the operand at
    `(b, t, n, 0)` (the same row-major position, then a shift by the zero offsets). -/
private theorem slice_cast_apply (x0 : Vec Ideal S16x288x4096x2 .f32) (b : Fin 16) (t : Fin 288) (n : Fin 4096) :
    shapeCast S16x288x4096 (extractStridedSlice S16x288x4096x1 ![0, 0, 0, 0] x0
        slices_S16x288x4096x2_S16x288x4096x1_0_0_0_0) shapeCasts_S16x288x4096x1_S16x288x4096 (ix3 b t n)
      = x0 (ix4 b t n 0) := by
  generalize hy : extractStridedSlice S16x288x4096x1 ![0, 0, 0, 0] x0 slices_S16x288x4096x2_S16x288x4096x1_0_0_0_0 = y
  refine (shapeCast_apply y shapeCasts_S16x288x4096x1_S16x288x4096 (ix3 b t n) (ix4 b t n 0) ?_).trans ?_
  · rewrite [Shape.rowMajor_val_four, Shape.rowMajor_val_three]
    show (((b.val * 288 + t.val) * 4096 + n.val) * 1 + 0) = (b.val * 288 + t.val) * 4096 + n.val
    omega
  · subst hy
    exact extractStridedSlice_apply ![0, 0, 0, 0] x0 slices_S16x288x4096x2_S16x288x4096x1_0_0_0_0 (ix4 b t n 0) (ix4 b t n 0)
      (fun a => match a with
        | ⟨0, _⟩ => by show b.val = 0 + b.val; omega
        | ⟨1, _⟩ => by show t.val = 0 + t.val; omega
        | ⟨2, _⟩ => by show n.val = 0 + n.val; omega
        | ⟨3, _⟩ => by show (0 : Fin 2).val = 0 + (0 : Fin 1).val; rfl)

theorem entry0_data (c : Dev nD) (b : Fin 16) (t : Fin 288) (n : Fin 4096) :
    (V1 m ρ c main_v1 : Vec Ideal S16x288x4096 .f32) (ix3 b t n) = dataOf m c b t n := by
  rw [v1_eq]
  exact slice_cast_apply _ b t n

/-- No operation of the second host stretch writes the sliced array, and region 0 only reads it (its window 0 is an
    input, whose array the pipeline never writes back). -/
theorem entry1_data (c : Dev nD) : V3 m ρ c main_v1 = V1 m ρ c main_v1 :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = (dat0 (V1 m ρ) c).arrAt 0 cfg0.N := W2_arr m ρ c 0
    _ = (dat0 (V1 m ρ) c).A 0 := (dat0 (V1 m ρ) c).arrAt_in 0 rfl cfg0.N
    _ = V1 m ρ c main_v1 := A_eq0 (V1 m ρ) c 0

/-- The global mean's array at region 1's entry: the host's quotient of region 0's first output by the larger of its
    second output and the word one, as arrays. -/
private theorem v5_eq (c : Dev nD) :
    (V3 m ρ c main_v5 : Vec Ideal S1x1 .f32)
      = Host.divf (F := Ideal) (W2 m ρ c (Proc.devRef .tc main_v2_0) : Vec Ideal S1x1 .f32)
          (maximumf (W2 m ρ c (Proc.devRef .tc main_v2_1) : Vec Ideal S1x1 .f32)
            (broadcastInDim S1x1 ![] bcast_S_S1x1 (constant (F := Ideal) S_ .f32 0x3F800000#32))) := by
  show StableHlo.after hostOps1 (W2 m ρ c) (Proc.devRef .tc main_v5) = _
  after_results

/-- The membership array at region 1's entry: the node ids spread along the regions compared, word by word, with the
    region numbers spread along the nodes, the bit made a float. -/
private theorem v12_eq (c : Dev nD) :
    (V3 m ρ c main_v12 : Vec Ideal S4096x16 .f32)
      = uitofp (F := Ideal) .f32 (cmpi .eq
          (broadcastInDim S4096x16 ![0, 1] bcast_S4096x1_S4096x16_0_1
            (broadcastInDim S4096x1 ![0] bcast_S4096_S4096x1_0 (W2 m ρ c (Proc.devRef .tc main_arg1) : IVec S4096 32)))
          (broadcastInDim S4096x16 ![0, 1] bcast_S1x16_S4096x16_0_1
            (broadcastInDim S1x16 ![1] bcast_S16_S1x16_1 (iotaInDim S16 32 0)))) := by
  show StableHlo.after hostOps1 (W2 m ρ c) (Proc.devRef .tc main_v12) = _
  after_results

/-- Region 0's two outputs, as its exit contents name them. -/
private theorem W2_v2_0 (c : Dev nD) : W2 m ρ c (Proc.devRef .tc main_v2_0) = (dat0 (V1 m ρ) c).arrAt 1 cfg0.N := W2_arr m ρ c 1
private theorem W2_v2_1 (c : Dev nD) : W2 m ρ c (Proc.devRef .tc main_v2_1) = (dat0 (V1 m ρ) c).arrAt 2 cfg0.N := W2_arr m ρ c 2

/-- The id array is as launched at region 0's exit: region 0 has no window on it and the first host stretch does not
    write it. -/
private theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c.tc : Thread nD τ).loc main_arg1) := rfl

/-- The quotient array read at its one index: the word one spread over the array reads the word one. -/
private theorem gmean_apply (a b : Vec Ideal S1x1 .f32) :
    Host.divf (F := Ideal) a (maximumf b (broadcastInDim S1x1 ![] bcast_S_S1x1 (constant (F := Ideal) S_ .f32 0x3F800000#32))) (ix2 0 0)
      = Ideal.div (a (ix2 0 0)) (max (b (ix2 0 0)) oneW) := by
  rw [hostDivf_apply, maximumf_apply, broadcastInDim_scalar_apply, constant_apply]

theorem entry1_gmean (c : Dev nD) :
    (V3 m ρ c main_v5 : Vec Ideal S1x1 .f32) (ix2 0 0)
      = Ideal.div (((dat0 (V1 m ρ) c).arrAt 1 cfg0.N : Vec Ideal S1x1 .f32) (ix2 0 0))
          (max (((dat0 (V1 m ρ) c).arrAt 2 cfg0.N : Vec Ideal S1x1 .f32) (ix2 0 0)) oneW) := by
  refine (congrFun (v5_eq m ρ c) (ix2 0 0)).trans ?_
  refine (gmean_apply _ _).trans ?_
  rw [W2_v2_0, W2_v2_1]

/-- The node ids spread along the regions, read at `(n, r)`: node `n`'s id. -/
private theorem ids_spread_apply (ids : IVec S4096 32) (n : Fin 4096) (r : Fin 16) :
    broadcastInDim S4096x16 ![0, 1] bcast_S4096x1_S4096x16_0_1
        (broadcastInDim S4096x1 ![0] bcast_S4096_S4096x1_0 ids) (ix2 n r) = ids (ix1 n) := by
  refine (broadcastInDim_apply _ bcast_S4096x1_S4096x16_0_1 _ (ix2 n r) (ix2 n 0) ?_).trans ?_
  · exact fun a => match a with
      | ⟨0, _⟩ => rfl
      | ⟨1, _⟩ => rfl
  · exact broadcastInDim_apply _ bcast_S4096_S4096x1_0 ids (ix2 n 0) (ix1 n) (fun a => match a with | ⟨0, _⟩ => rfl)

/-- The region numbers spread along the nodes, read at `(n, r)`: the word `r`. -/
private theorem regions_spread_apply (n : Fin 4096) (r : Fin 16) :
    broadcastInDim S4096x16 ![0, 1] bcast_S1x16_S4096x16_0_1
        (broadcastInDim S1x16 ![1] bcast_S16_S1x16_1 (iotaInDim S16 32 0)) (ix2 n r) = BitVec.ofNat 32 r.val := by
  refine (broadcastInDim_apply _ bcast_S1x16_S4096x16_0_1 _ (ix2 n r) (ix2 0 r) ?_).trans ?_
  · exact fun a => match a with
      | ⟨0, _⟩ => rfl
      | ⟨1, _⟩ => rfl
  · exact broadcastInDim_apply _ bcast_S16_S1x16_1 (iotaInDim S16 32 0) (ix2 0 r) (ix1 r) (fun a => match a with | ⟨0, _⟩ => rfl)

/-- The membership array over an id array. -/
private def memArr (ids : IVec S4096 32) : Vec Ideal S4096x16 .f32 :=
  uitofp (F := Ideal) .f32 (cmpi .eq
    (broadcastInDim S4096x16 ![0, 1] bcast_S4096x1_S4096x16_0_1 (broadcastInDim S4096x1 ![0] bcast_S4096_S4096x1_0 ids))
    (broadcastInDim S4096x16 ![0, 1] bcast_S1x16_S4096x16_0_1 (broadcastInDim S1x16 ![1] bcast_S16_S1x16_1 (iotaInDim S16 32 0))))

/-- Read at `(n, r)` it is the membership weight: the equality bit of node `n`'s id and the word `r`, as a number. -/
private theorem memArr_apply (ids : IVec S4096 32) (n : Fin 4096) (r : Fin 16) :
    memArr ids (ix2 n r) = member (fun n => ids (ix1 n)) n r := by
  have h := congrArg (fun b : BitVec 1 => (((b.toNat : ℕ) : ℝ) : EReal))
    (congrArg₂ (IntOp.cmpi .eq) (ids_spread_apply ids n r) (regions_spread_apply n r))
  exact h

private theorem v12_eq' (c : Dev nD) :
    (V3 m ρ c main_v12 : Vec Ideal S4096x16 .f32) = memArr (m ((c.tc : Thread nD τ).loc main_arg1) : IVec S4096 32) := by
  rw [v12_eq, W2_arg1]; rfl

theorem entry1_member (c : Dev nD) (n : Fin 4096) (r : Fin 16) :
    (V3 m ρ c main_v12 : Vec Ideal S4096x16 .f32) (ix2 n r) = member (idsOf m c) n r := by
  refine (congrFun (v12_eq' m ρ c) (ix2 n r)).trans ?_
  exact memArr_apply _ n r

/-- The member counts' array at region 1's entry: the column sums of the membership array from the zero word, spread
    to one row. -/
private theorem v14_eq (c : Dev nD) :
    (V3 m ρ c main_v14 : Vec Ideal S1x16 .f32)
      = broadcastInDim S1x16 ![1] bcast_S16_S1x16_1
          (Host.reduceAdd (F := Ideal) (memArr (W2 m ρ c (Proc.devRef .tc main_arg1) : IVec S4096 32))
            (constant (F := Ideal) S_ .f32 0x00000000#32) reducesTo_S4096x16_S16_d0 h_S_) := by
  show StableHlo.after hostOps1 (W2 m ρ c) (Proc.devRef .tc main_v14) = _
  after_results
  rfl

/-- The column sums from the zero word spread to one row, read at `(0, r)`: the sum over the nodes of column `r`. -/
private theorem colsum_apply (X : Vec Ideal S4096x16 .f32) (r : Fin 16) :
    broadcastInDim S1x16 ![1] bcast_S16_S1x16_1
        (Host.reduceAdd (F := Ideal) X (constant (F := Ideal) S_ .f32 0x00000000#32) reducesTo_S4096x16_S16_d0 h_S_) (ix2 0 r)
      = ∑ n : Fin 4096, X (ix2 n r) := by
  refine (broadcastInDim_apply _ bcast_S16_S1x16_1 _ (ix2 0 r) (ix1 r) (fun a => match a with | ⟨0, _⟩ => rfl)).trans ?_
  rw [hostReduceAdd_apply]
  refine (Ideal.hostReduceAdd_single reducesTo_S4096x16_S16_d0 (by decide : S4096x16.Reduces [0] S16) X _ (ix1 r)).trans ?_
  rw [constant_apply, Ideal.ofBits_zero_f32, zero_add]
  exact Finset.sum_congr rfl (fun k _ => congrArg X (funext fun a => match a with | ⟨0, _⟩ => rfl | ⟨1, _⟩ => rfl))

theorem entry1_members (c : Dev nD) (r : Fin 16) :
    (V3 m ρ c main_v14 : Vec Ideal S1x16 .f32) (ix2 0 r) = members (idsOf m c) r := by
  refine (congrFun (v14_eq m ρ c) (ix2 0 r)).trans ?_
  refine (colsum_apply _ r).trans ?_
  rw [W2_arg1]
  exact Finset.sum_congr rfl (fun n _ => memArr_apply _ n r)

end Cert.KernelIdeal.Glue

end
-- ==== Proof.Region0Pieces.lean ====
/-
  The first pass over one batch row, read as values: what the two `[1, 1]` accumulators hold after a grid point.

  The pass sees the row as a `[1, 288, 4096]` block and walks it in three chunks of 96 time steps (steps 0–95, 96–191,
  192–287). For a chunk it compares every entry with `-1` (the presence bit), replaces a missing entry by the zero
  word, sums the 4096 lanes of each of the 96 rows and then the 96 row sums; for the count it widens the presence bit
  to a word, reads it as a number (1 or 0) and sums the same way. The chunk results are added in order onto the zero
  word, and the total is added to what the accumulator held: the zero vector at the first grid point (it is stored,
  read back and overwritten), the running contents at a later one.

  Over the extended reals the zero word is `0`, addition is commutative and associative without any finiteness, and
  the three chunk sums over `Fin 96 × Fin 4096` are the sum over `Fin 288 × Fin 4096` split at 96 and 192
  (`sum_three_chunks`). So the accumulators are left at `rowTotal` / `rowCount` of the row at the first point and at
  the running value plus these at a later point.
-/
import proofs.«426560_j34574486733038_2_alg».proof.Proof.Gen.KernelIdeal.Frame
import proofs.«426560_j34574486733038_2_alg».proof.Proof.Spec
import Idealize.ShloMosaic.Lib.ValueIdx
import Idealize.ShloMosaic.Lib.Pipeline.Value
import Idealize.ShloMosaic.PureOps.Ideal.Laws
import Idealize.ShloMosaic.Lib.Tactic
import Idealize.ShloMosaic.Lib.ValueLayout

noncomputable section

namespace Cert.KernelIdeal.Region0

open Cert.KernelIdeal Cert.KernelIdeal.Gen Cert.RegionMean
open Idealize.ShloMosaic Idealize.ShloMosaic.TcCoe Idealize.ShloMosaic.ValueIdx Idealize.SL.Sem

/-- One batch row as the first pass's input block holds it: entry `(t, n)` of the `[1, 288, 4096]` block. -/
abbrev rowOf (x0 : Vec Ideal S1x288x4096 .f32) : Fin 288 → Fin 4096 → EReal := fun t n => x0 (ix3 0 t n)

/-! ## Layout and reduction readings at the shapes of one chunk -/

section Readings
variable {α : Type}

/-- A vector of `a` entries cast to an `[a, 1]` column reads, at row `i`, its entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a `[96, 4096]` vector, at row `t`. -/
theorem laneSum_apply (v : FVec Ideal S96x4096 .f32) (h : S96x4096.Reduces [1] S96) (hφ : FKind.Formats .f32)
    (hacc : (0x00000000#32 : BitVec 32) = 0x00000000#32) (t : Fin 96) :
    multiReduction (F := Ideal) .add [1] S96 v 0x00000000#32 h hφ hacc (ix1 t) = ∑ n : Fin 4096, v (ix2 t n) :=
  (Ideal.multiReduction_add_single v 0x00000000#32 h hφ hacc (ix1 t)).trans
    (Finset.sum_congr rfl fun n _ => congrArg v (funext fun a => Fin.ext (by
      match a with | ⟨0, _⟩ => rfl | ⟨1, _⟩ => rfl)))

/-- The sum over the rows of a `[96, 1]` column. -/
theorem rowSum_apply (v : FVec Ideal S96x1 .f32) (h : S96x1.Reduces [0] S1) (hφ : FKind.Formats .f32)
    (hacc : (0x00000000#32 : BitVec 32) = 0x00000000#32) (u : Fin 1) :
    multiReduction (F := Ideal) .add [0] S1 v 0x00000000#32 h hφ hacc (ix1 u) = ∑ t : Fin 96, v (ix2 t (0 : Fin 1)) :=
  (Ideal.multiReduction_add_single v 0x00000000#32 h hφ hacc (ix1 u)).trans
    (Finset.sum_congr rfl fun t _ => congrArg v (funext fun a => Fin.ext (by
      match a with
      | ⟨0, _⟩ => rfl
      | ⟨1, _⟩ =>
        show (u : ℕ) = 0
        omega)))

end Readings

/-! ## Three chunks of 96 steps make the 288 steps -/

/-- The sums over time steps `0..95`, `96..191` and `192..287` add up to the sum over all `288` steps. -/
theorem sum_three_chunks {M : Type*} [AddCommMonoid M] (f : Fin 288 → M) :
    ((∑ t : Fin 96, f ⟨t.val, by omega⟩) + ∑ t : Fin 96, f ⟨96 + t.val, by omega⟩) + ∑ t : Fin 96, f ⟨192 + t.val, by omega⟩
      = ∑ t : Fin 288, f t := by
  rw [show (∑ t : Fin 288, f t) = ∑ t : Fin (96 + 96 + 96), f t from rfl, Fin.sum_univ_add, Fin.sum_univ_add]
  rfl

/-! ## One chunk of 96 time steps: its mask, its kept entries, its sums -/

section Chunk

/-- The lane sums of a `[96, 4096]` vector laid out as a `[96, 1]` column, at row `t`. -/
theorem laneCol_apply (w : FVec Ideal S96x4096 .f32) (h : S96x4096.Reduces [1] S96) (hφ : FKind.Formats .f32)
    (hacc : (0x00000000#32 : BitVec 32) = 0x00000000#32) (hc : S96.ShapeCasts S96x1) (t : Fin 96) (u : Fin 1) :
    shapeCast S96x1 (multiReduction (F := Ideal) .add [1] S96 w 0x00000000#32 h hφ hacc) hc (ix2 t u)
      = ∑ n : Fin 4096, w (ix2 t n) :=
  (shapeCast_a_a1_apply _ hc t u).trans (laneSum_apply w h hφ hacc t)

/-- The sum of a `[96, 1]` column laid out as a `[1, 1]` vector. -/
theorem colTotal_apply (col : FVec Ideal S96x1 .f32) (h : S96x1.Reduces [0] S1) (hφ : FKind.Formats .f32)
    (hacc : (0x00000000#32 : BitVec 32) = 0x00000000#32) (hc : S1.ShapeCasts S1x1) (u u' : Fin 1) :
    shapeCast S1x1 (multiReduction (F := Ideal) .add [0] S1 col 0x00000000#32 h hφ hacc) hc (ix2 u u')
      = ∑ t : Fin 96, col (ix2 t (0 : Fin 1)) :=
  (shapeCast_a_1a_apply _ hc u u').trans (rowSum_apply col h hφ hacc u')

variable (v : Vec Ideal S1x96x4096 .f32)

/-- The sum of the present entries of a chunk, and their number. -/
def chunkTotal : EReal := ∑ t : Fin 96, ∑ n : Fin 4096, kept (v (ix3 0 t n))
def chunkCount : EReal := ∑ t : Fin 96, ∑ n : Fin 4096, present (v (ix3 0 t n))

/-- The chunk with its unit axis dropped reads the chunk's entry. -/
theorem flat_apply (t : Fin 96) (n : Fin 4096) : k0_pay3 (F := Ideal) v (ix2 t n) = v (ix3 0 t n) :=
  shapeCast_1ab_ab_apply v _ t n

/-- The mask of a chunk is the presence bit of its entry. -/
theorem mask_apply (t : Fin 96) (n : Fin 4096) : k0_pay4 (F := Ideal) v (ix2 t n) = ok (v (ix3 0 t n)) :=
  congrArg (fun e => Ideal.cmp .one e negOne) (flat_apply v t n)

/-- The masked chunk (a missing entry replaced by the zero word) reads the kept entry. -/
theorem kept_apply (t : Fin 96) (n : Fin 4096) :
    select (k0_pay4 (F := Ideal) v) (k0_pay3 (F := Ideal) v) (broadcast S96x4096 (Scalar.ofBits .f32 0x00000000#32)) (ix2 t n)
      = kept (v (ix3 0 t n)) := by
  show Scalar.select (k0_pay4 (F := Ideal) v (ix2 t n)) (k0_pay3 (F := Ideal) v (ix2 t n)) zeroW = _
  rw [mask_apply, flat_apply]
  rfl

/-- The number a presence bit counts for: the bit widened to a word and read as a signed integer is the bit's value. -/
theorem bit_toInt (b : BitVec 1) : (((b.setWidth 32).toInt : ℝ) : EReal) = (((b.toNat : ℕ) : ℝ) : EReal) := by
  rcases BitVec.eq_zero_or_eq_one b with h | h <;> subst h <;> simp

/-- The mask widened and converted to a float reads `1` at a present entry and `0` at a missing one. -/
theorem present_apply (t : Fin 96) (n : Fin 4096) :
    (sitofp .f32 (extui 32 (k0_pay4 (F := Ideal) v) natLt_1_32) : FVec Ideal S96x4096 .f32) (ix2 t n)
      = present (v (ix3 0 t n)) := by
  show ((((k0_pay4 (F := Ideal) v (ix2 t n)).setWidth 32).toInt : ℝ) : EReal) = _
  rw [mask_apply, bit_toInt]
  rfl

/-- The first chunk's sum of kept entries, started from the zero word. -/
theorem pay5_apply : k0_pay5 (F := Ideal) v (ix2 (0 : Fin 1) (0 : Fin 1)) = zeroW + chunkTotal v := by
  unfold k0_pay5 chunkTotal
  refine (addf_apply _ _ _).trans (congrArg₂ (· + ·) rfl ?_)
  refine (colTotal_apply _ _ _ _ _ 0 0).trans (Finset.sum_congr rfl fun t _ => ?_)
  refine (laneCol_apply _ _ _ _ _ t 0).trans (Finset.sum_congr rfl fun n _ => ?_)
  exact kept_apply v t n

/-- The first chunk's count of present entries, started from the zero word. -/
theorem pay6_apply : k0_pay6 (F := Ideal) v (ix2 (0 : Fin 1) (0 : Fin 1)) = zeroW + chunkCount v := by
  unfold k0_pay6 chunkCount
  refine (addf_apply _ _ _).trans (congrArg₂ (· + ·) rfl ?_)
  refine (colTotal_apply _ _ _ _ _ 0 0).trans (Finset.sum_congr rfl fun t _ => ?_)
  refine (laneCol_apply _ _ _ _ _ t 0).trans (Finset.sum_congr rfl fun n _ => ?_)
  exact present_apply v t n

/-- The second chunk's column of row sums of kept entries. -/
theorem pay9_apply (t : Fin 96) : k0_pay9 (F := Ideal) v (ix2 t (0 : Fin 1)) = ∑ n : Fin 4096, kept (v (ix3 0 t n)) := by
  unfold k0_pay9
  refine (laneCol_apply _ _ _ _ _ t 0).trans (Finset.sum_congr rfl fun n _ => ?_)
  exact kept_apply v t n

/-- The second chunk's mask. -/
theorem pay8_apply (t : Fin 96) (n : Fin 4096) : k0_pay8 (F := Ideal) v (ix2 t n) = ok (v (ix3 0 t n)) :=
  mask_apply v t n

end Chunk

/-! ## The stored payloads: the running sum and count plus the three chunks' -/

section Stored

/-- The new sum: the running sum plus the first chunks' carried sums plus the last chunk's. -/
theorem pay12_apply (s0 : FVec Ideal S1x1 .f32) (col1 : FVec Ideal S96x1 .f32) (v2 : Vec Ideal S1x96x4096 .f32)
    (acc : Vec Ideal S1x1 .f32) :
    k0_pay12 (F := Ideal) s0 col1 v2 acc (ix2 (0 : Fin 1) (0 : Fin 1))
      = acc (ix2 0 0) + ((s0 (ix2 0 0) + ∑ t : Fin 96, col1 (ix2 t (0 : Fin 1))) + chunkTotal v2) := by
  unfold k0_pay12 chunkTotal
  refine (addf_apply _ _ _).trans (congrArg₂ (· + ·) (congrFun (shapeCast_self acc _) _) ?_)
  refine (addf_apply _ _ _).trans (congrArg₂ (· + ·) ?_ ?_)
  · exact (addf_apply _ _ _).trans (congrArg₂ (· + ·) rfl (colTotal_apply col1 _ _ _ _ 0 0))
  · refine (colTotal_apply _ _ _ _ _ 0 0).trans (Finset.sum_congr rfl fun t _ => ?_)
    refine (laneCol_apply _ _ _ _ _ t 0).trans (Finset.sum_congr rfl fun n _ => ?_)
    exact kept_apply v2 t n

/-- The new count: the running count plus the first chunk's carried count, the second chunk's mask counted, and
    the last chunk's count. -/
theorem pay13_apply (c0 : FVec Ideal S1x1 .f32) (mask1 : IVec S96x4096 1) (v2 : Vec Ideal S1x96x4096 .f32)
    (acc : Vec Ideal S1x1 .f32) :
    k0_pay13 (F := Ideal) c0 mask1 v2 acc (ix2 (0 : Fin 1) (0 : Fin 1))
      = acc (ix2 0 0)
        + ((c0 (ix2 0 0) + ∑ t : Fin 96, ∑ n : Fin 4096, ((((mask1 (ix2 t n)).toNat : ℕ) : ℝ) : EReal)) + chunkCount v2) := by
  unfold k0_pay13 chunkCount
  refine (addf_apply _ _ _).trans (congrArg₂ (· + ·) (congrFun (shapeCast_self acc _) _) ?_)
  refine (addf_apply _ _ _).trans (congrArg₂ (· + ·) ?_ ?_)
  · refine (addf_apply _ _ _).trans (congrArg₂ (· + ·) rfl ?_)
    refine (colTotal_apply _ _ _ _ _ 0 0).trans (Finset.sum_congr rfl fun t _ => ?_)
    refine (laneCol_apply _ _ _ _ _ t 0).trans (Finset.sum_congr rfl fun n _ => ?_)
    exact bit_toInt (mask1 (ix2 t n))
  · refine (colTotal_apply _ _ _ _ _ 0 0).trans (Finset.sum_congr rfl fun t _ => ?_)
    refine (laneCol_apply _ _ _ _ _ t 0).trans (Finset.sum_congr rfl fun n _ => ?_)
    exact present_apply v2 t n

/-- The stored sum over three chunks: the running sum plus the chunks' sums, in the program's order. -/
theorem total_apply (v0 v1 v2 : Vec Ideal S1x96x4096 .f32) (acc : Vec Ideal S1x1 .f32) :
    k0_pay12 (F := Ideal) (k0_pay5 v0) (k0_pay9 v1) v2 acc (ix2 (0 : Fin 1) (0 : Fin 1))
      = acc (ix2 0 0) + ((chunkTotal v0 + chunkTotal v1) + chunkTotal v2) := by
  rw [pay12_apply, pay5_apply, Finset.sum_congr rfl fun t _ => pay9_apply v1 t]
  show acc (ix2 0 0) + ((zeroW + chunkTotal v0 + chunkTotal v1) + chunkTotal v2) = _
  rw [show zeroW = 0 from Ideal.ofBits_zero_f32, zero_add]

/-- The stored count over three chunks likewise. -/
theorem count_apply (v0 v1 v2 : Vec Ideal S1x96x4096 .f32) (acc : Vec Ideal S1x1 .f32) :
    k0_pay13 (F := Ideal) (k0_pay6 v0) (k0_pay8 v1) v2 acc (ix2 (0 : Fin 1) (0 : Fin 1))
      = acc (ix2 0 0) + ((chunkCount v0 + chunkCount v1) + chunkCount v2) := by
  rw [pay13_apply, pay6_apply,
    Finset.sum_congr rfl fun t _ => Finset.sum_congr rfl fun n _ =>
      congrArg (fun b : BitVec 1 => ((((b.toNat : ℕ) : ℝ) : EReal))) (pay8_apply v1 t n)]
  show acc (ix2 0 0) + ((zeroW + chunkCount v0 + chunkCount v1) + chunkCount v2) = _
  rw [show zeroW = 0 from Ideal.ofBits_zero_f32, zero_add]

end Stored

/-! ## The chunks of the input block -/

section Blocks
variable (x0 : Vec Ideal S1x288x4096 .f32)

/-- A load of 96 time steps from step `o` on reads, at `(t, n)`, the block's entry at step `o + t`. -/
theorem ld_chunk_apply (o : ℕ) (p : ∀ a, (![0, o, 0] : Fin 3 → ℕ) a + (![1, 96, 4096] : Fin 3 → ℕ) a ≤ S1x288x4096.size a)
    (t : Fin 96) (n : Fin 4096) (s : Fin 288) (hs : s.val = o + t.val) :
    View.ld x0 (Rect.unit (s := S1x288x4096) ![0, o, 0] ![1, 96, 4096] p) (ix3 (0 : Fin 1) t n) = x0 (ix3 0 s n) := by
  refine congrArg x0 (funext fun a => Fin.ext ?_)
  match a with
  | ⟨0, _⟩ => rfl
  | ⟨1, _⟩ =>
    show o + 1 * t.val = s.val
    omega
  | ⟨2, _⟩ =>
    show 0 + 1 * n.val = n.val
    omega

/-- The kept entries of one time step summed over the nodes. -/
abbrev stepTotal (s : Fin 288) : EReal := ∑ n : Fin 4096, kept (x0 (ix3 0 s n))
/-- The present entries of one time step counted over the nodes. -/
abbrev stepCount (s : Fin 288) : EReal := ∑ n : Fin 4096, present (x0 (ix3 0 s n))

theorem chunkTotal_ld (o : ℕ) (p) (s : Fin 96 → Fin 288) (hs : ∀ t : Fin 96, (s t).val = o + t.val) :
    chunkTotal (View.ld x0 (Rect.unit (s := S1x288x4096) ![0, o, 0] ![1, 96, 4096] p)) = ∑ t : Fin 96, stepTotal x0 (s t) :=
  Finset.sum_congr rfl fun t _ => Finset.sum_congr rfl fun n _ => congrArg kept (ld_chunk_apply x0 o p t n (s t) (hs t))

theorem chunkCount_ld (o : ℕ) (p) (s : Fin 96 → Fin 288) (hs : ∀ t : Fin 96, (s t).val = o + t.val) :
    chunkCount (View.ld x0 (Rect.unit (s := S1x288x4096) ![0, o, 0] ![1, 96, 4096] p)) = ∑ t : Fin 96, stepCount x0 (s t) :=
  Finset.sum_congr rfl fun t _ => Finset.sum_congr rfl fun n _ => congrArg present (ld_chunk_apply x0 o p t n (s t) (hs t))

/-- The three chunks' sums of kept entries make the row's total. -/
theorem chunks_total (p0 p1 p2) :
    (chunkTotal (View.ld x0 (Rect.unit (s := S1x288x4096) ![0, 0, 0] ![1, 96, 4096] p0))
        + chunkTotal (View.ld x0 (Rect.unit (s := S1x288x4096) ![0, 96, 0] ![1, 96, 4096] p1)))
      + chunkTotal (View.ld x0 (Rect.unit (s := S1x288x4096) ![0, 192, 0] ![1, 96, 4096] p2))
      = rowTotal (rowOf x0) := by
  rw [chunkTotal_ld x0 0 p0 (fun t => ⟨t.val, by omega⟩) (fun t => (Nat.zero_add _).symm),
    chunkTotal_ld x0 96 p1 (fun t => ⟨96 + t.val, by omega⟩) (fun _ => rfl),
    chunkTotal_ld x0 192 p2 (fun t => ⟨192 + t.val, by omega⟩) (fun _ => rfl)]
  exact sum_three_chunks (stepTotal x0)

/-- The three chunks' counts of present entries make the row's count. -/
theorem chunks_count (p0 p1 p2) :
    (chunkCount (View.ld x0 (Rect.unit (s := S1x288x4096) ![0, 0, 0] ![1, 96, 4096] p0))
        + chunkCount (View.ld x0 (Rect.unit (s := S1x288x4096) ![0, 96, 0] ![1, 96, 4096] p1)))
      + chunkCount (View.ld x0 (Rect.unit (s := S1x288x4096) ![0, 192, 0] ![1, 96, 4096] p2))
      = rowCount (rowOf x0) := by
  rw [chunkCount_ld x0 0 p0 (fun t => ⟨t.val, by omega⟩) (fun t => (Nat.zero_add _).symm),
    chunkCount_ld x0 96 p1 (fun t => ⟨96 + t.val, by omega⟩) (fun _ => rfl),
    chunkCount_ld x0 192 p2 (fun t => ⟨192 + t.val, by omega⟩) (fun _ => rfl)]
  exact sum_three_chunks (stepCount x0)

end Blocks

/-! ## What each control case leaves in the two accumulators -/

section Pieces
variable {F : FTy → Type} [FloatOps F] [Named F]

theorem offsets_zero : (![0, 0] : Fin 2 → Nat) = fun _ => 0 := funext fun a => by fin_cases a <;> rfl

/-- The one index of a `[1, 1]` vector. -/
theorem idx11 (j : S1x1.Idx) : j = ix2 (0 : Fin 1) (0 : Fin 1) := by
  funext a
  apply Fin.ext
  match a with
  | ⟨0, _⟩ =>
    have := idx2_lt0 j
    show (j 0).val = 0
    omega
  | ⟨1, _⟩ =>
    have := idx2_lt1 j
    show (j 1).val = 0
    omega

/-- At a later grid point the sum accumulator is left at the stored payload of the running sum and the three chunks. -/
theorem later_sum (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : ¬cond0_0 i) (x0 : Vec F S1x288x4096 .f32) (xo1 xo2 : Vec F S1x1 .f32) (p0 p1 p2) :
    out0_B_1 (F := F) c i a1 h1 a2 h2 a3 h3 hc x0 xo1 xo2
      = k0_pay12 (k0_pay5 (View.ld x0 (Rect.unit (s := S1x288x4096) ![0, 0, 0] ![1, 96, 4096] p0)))
          (k0_pay9 (View.ld x0 (Rect.unit (s := S1x288x4096) ![0, 96, 0] ![1, 96, 4096] p1)))
          (View.ld x0 (Rect.unit (s := S1x288x4096) ![0, 192, 0] ![1, 96, 4096] p2)) xo1 := by
  unfold out0_B_1
  rw [View.read_writes_eq_canon _ _ _ (cover0_B_1 c i a1 h1 a2 h2 a3 h3 hc x0 xo1 xo2)]
  unfold kernelRun0_B
  dsimp only
  sl_unfold_words
  rw [View.canon_unit_zero offsets_zero]
  simp only [View.readAt_eq_ld, h1.read_unread, h2.read_unread, h3.read_unread, View.ld_unit_zero (S := S1x1) offsets_zero, shapeCast_self]

/-- At a later grid point the count accumulator likewise. -/
theorem later_count (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : ¬cond0_0 i) (x0 : Vec F S1x288x4096 .f32) (xo1 xo2 : Vec F S1x1 .f32) (p0 p1 p2) :
    out0_B_2 (F := F) c i a1 h1 a2 h2 a3 h3 hc x0 xo1 xo2
      = k0_pay13 (k0_pay6 (View.ld x0 (Rect.unit (s := S1x288x4096) ![0, 0, 0] ![1, 96, 4096] p0)))
          (k0_pay8 (View.ld x0 (Rect.unit (s := S1x288x4096) ![0, 96, 0] ![1, 96, 4096] p1)))
          (View.ld x0 (Rect.unit (s := S1x288x4096) ![0, 192, 0] ![1, 96, 4096] p2)) xo2 := by
  unfold out0_B_2
  rw [View.read_writes_eq_canon _ _ _ (cover0_B_2 c i a1 h1 a2 h2 a3 h3 hc x0 xo1 xo2)]
  unfold kernelRun0_B
  dsimp only
  sl_unfold_words
  rw [View.canon_unit_zero offsets_zero]
  simp only [View.readAt_eq_ld, h1.read_unread, h2.read_unread, h3.read_unread, View.ld_unit_zero (S := S1x1) offsets_zero, shapeCast_self]

/-- At the first grid point the sum accumulator is zeroed, read back, and left at the same payload over the zero vector. -/
theorem first_sum (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : cond0_0 i) (x0 : Vec F S1x288x4096 .f32) (p0 p1 p2) :
    out0_A_1 (F := F) c i a1 h1 a2 h2 a3 h3 hc x0
      = k0_pay12 (k0_pay5 (View.ld x0 (Rect.unit (s := S1x288x4096) ![0, 0, 0] ![1, 96, 4096] p0)))
          (k0_pay9 (View.ld x0 (Rect.unit (s := S1x288x4096) ![0, 96, 0] ![1, 96, 4096] p1)))
          (View.ld x0 (Rect.unit (s := S1x288x4096) ![0, 192, 0] ![1, 96, 4096] p2)) (k0_pay1 (F := F)) := by
  unfold out0_A_1
  rw [View.read_writes_eq_canon _ _ _ (cover0_A_1 c i a1 h1 a2 h2 a3 h3 hc x0)]
  unfold kernelRun0_A
  dsimp only
  sl_unfold_words
  rw [View.canon_cons_unit_zero (S := S1x1) offsets_zero]
  simp only [View.readAt_eq_ld, h1.read_unread, View.readCov_unit_zero (S := S1x1) _ offsets_zero, View.ld_unit_zero (S := S1x1) offsets_zero, shapeCast_self]

/-- At the first grid point the count accumulator likewise. -/
theorem first_cnt (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : cond0_0 i) (x0 : Vec F S1x288x4096 .f32) (p0 p1 p2) :
    out0_A_2 (F := F) c i a1 h1 a2 h2 a3 h3 hc x0
      = k0_pay13 (k0_pay6 (View.ld x0 (Rect.unit (s := S1x288x4096) ![0, 0, 0] ![1, 96, 4096] p0)))
          (k0_pay8 (View.ld x0 (Rect.unit (s := S1x288x4096) ![0, 96, 0] ![1, 96, 4096] p1)))
          (View.ld x0 (Rect.unit (s := S1x288x4096) ![0, 192, 0] ![1, 96, 4096] p2)) (k0_pay2 (F := F)) := by
  unfold out0_A_2
  rw [View.read_writes_eq_canon _ _ _ (cover0_A_2 c i a1 h1 a2 h2 a3 h3 hc x0)]
  unfold kernelRun0_A
  dsimp only
  sl_unfold_words
  rw [View.canon_cons_unit_zero (S := S1x1) offsets_zero]
  simp only [View.readAt_eq_ld, h1.read_unread, View.readCov_unit_zero (S := S1x1) _ offsets_zero, View.ld_unit_zero (S := S1x1) offsets_zero, shapeCast_self]

end Pieces

/-! ## The four values -/

theorem first_total (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : cond0_0 i) (x0 : Vec Ideal S1x288x4096 .f32) :
    out0_A_1 (F := Ideal) c i a1 h1 a2 h2 a3 h3 hc x0 = fun _ => rowTotal (rowOf x0) := by
  rw [first_sum (F := Ideal) c i a1 h1 a2 h2 a3 h3 hc x0 (by decide) (by decide) (by decide)]
  funext j
  rw [idx11 j, total_apply, chunks_total]
  show zeroW + rowTotal (rowOf x0) = _
  rw [show zeroW = 0 from Ideal.ofBits_zero_f32, zero_add]

theorem first_count (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : cond0_0 i) (x0 : Vec Ideal S1x288x4096 .f32) :
    out0_A_2 (F := Ideal) c i a1 h1 a2 h2 a3 h3 hc x0 = fun _ => rowCount (rowOf x0) := by
  rw [first_cnt (F := Ideal) c i a1 h1 a2 h2 a3 h3 hc x0 (by decide) (by decide) (by decide)]
  funext j
  rw [idx11 j, count_apply, chunks_count]
  show zeroW + rowCount (rowOf x0) = _
  rw [show zeroW = 0 from Ideal.ofBits_zero_f32, zero_add]

theorem next_total (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : ¬cond0_0 i) (x0 : Vec Ideal S1x288x4096 .f32) (xo1 xo2 : Vec Ideal S1x1 .f32) :
    out0_B_1 (F := Ideal) c i a1 h1 a2 h2 a3 h3 hc x0 xo1 xo2 = fun _ => xo1 (ix2 0 0) + rowTotal (rowOf x0) := by
  rw [later_sum (F := Ideal) c i a1 h1 a2 h2 a3 h3 hc x0 xo1 xo2 (by decide) (by decide) (by decide)]
  funext j
  rw [idx11 j, total_apply, chunks_total]

theorem next_count (c : Dev nD) (i : grid0.Coords) (a1 : Memref sig .tc .vmem S1x288x4096 .f32) (h1 : a1.IsWhole) (a2 : Memref sig .tc .vmem S1x1 .f32) (h2 : a2.IsWhole) (a3 : Memref sig .tc .vmem S1x1 .f32) (h3 : a3.IsWhole) (hc : ¬cond0_0 i) (x0 : Vec Ideal S1x288x4096 .f32) (xo1 xo2 : Vec Ideal S1x1 .f32) :
    out0_B_2 (F := Ideal) c i a1 h1 a2 h2 a3 h3 hc x0 xo1 xo2 = fun _ => xo2 (ix2 0 0) + rowCount (rowOf x0) := by
  rw [later_count (F := Ideal) c i a1 h1 a2 h2 a3 h3 hc x0 xo1 xo2 (by decide) (by decide) (by decide)]
  funext j
  rw [idx11 j, count_apply, chunks_count]

end Cert.KernelIdeal.Region0

end
-- ==== Proof.Region0Sum.lean ====
/-
  The first pass's two output arrays after the region: the total and the count over all sixteen batch rows.

  The grid has one point per batch row; point `t` reads row `t` of the `[16, 288, 4096]` data array. Both outputs are
  `[1, 1]` blocks whose block index never moves: they are reset at the first point, every later point adds its row's
  total (count) to what the point before left, and they are written back once, after the last point. By induction on
  the point the accumulators hold, after point `n`, the sum of the totals (counts) of rows `0 … n`; the one write-back
  covers the whole `[1, 1]` array, so the arrays end at the sums over all sixteen rows.
-/
import proofs.«426560_j34574486733038_2_alg».proof.Proof.Gen.KernelIdeal.Frame
import proofs.«426560_j34574486733038_2_alg».proof.Proof.Spec
import proofs.«426560_j34574486733038_2_alg».proof.Proof.Region0Pieces
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Tactic

set_option maxRecDepth 16384

noncomputable section

namespace Cert.KernelIdeal.Region0

open Cert.KernelIdeal Cert.KernelIdeal.Gen Cert.RegionMean
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Batch row `b` of the first pass's input array. -/
abbrev rowAt (c : Dev nD) (b : Fin 16) : Fin 288 → Fin 4096 → EReal :=
  fun t n => (V c main_v1 : Vec Ideal S16x288x4096 .f32) (ix3 b t n)

/-- Batch row number `k` of the input array, for a natural number `k`: the row itself below 16, and the zero row from
    16 on (no sum below reaches that far). -/
def rowNat (c : Dev nD) (k : ℕ) : Fin 288 → Fin 4096 → EReal :=
  if h : k < 16 then rowAt V c ⟨k, h⟩ else fun _ _ => 0

theorem rowNat_val (c : Dev nD) (b : Fin 16) : rowNat V c b.val = rowAt V c b := by
  unfold rowNat
  rw [dif_pos b.isLt]

/-- The input window's block index at grid point `t` is `(t, 0, 0)`. -/
theorem block_index : ∀ t : Fin cfg0.N,
    win0_0.index t (0 : Fin 3) = t.val ∧ win0_0.index t (1 : Fin 3) = 0 ∧ win0_0.index t (2 : Fin 3) = 0 :=
  (by decide +kernel : ∀ t : Fin grid0.N,
    win0_0.index t (0 : Fin 3) = t.val ∧ win0_0.index t (1 : Fin 3) = 0 ∧ win0_0.index t (2 : Fin 3) = 0)

/-- The block the first pass reads at grid point `t` is batch row `t` of the input array: entry `(0, s, n)` of the
    `[1, 288, 4096]` block number `(t, 0, 0)` is entry `(t, s, n)` of the array. -/
theorem block_row (c : Dev nD) (t : Fin cfg0.N) : rowOf (iblk0 V c 0 t) = rowNat V c t.val := by
  have hN : cfg0.N = 16 := N_0
  have ht : t.val < 16 := by have := t.isLt; omega
  obtain ⟨h0, h1, h2⟩ := block_index t
  unfold rowNat
  rw [dif_pos ht]
  funext s n
  show (iblk0 V c 0 t : Vec Ideal S1x288x4096 .f32) (ix3 0 s n) = (V c main_v1 : Vec Ideal S16x288x4096 .f32) (ix3 ⟨t.val, ht⟩ s n)
  unfold iblk0
  rw [View.read_apply]
  show V c main_v1 _ = V c main_v1 _
  congr 1
  funext a
  apply Fin.ext
  match a with
  | ⟨0, _⟩ => show win0_0.index t 0 * 1 + 1 * 0 = t.val; rw [h0]; omega
  | ⟨1, _⟩ => show win0_0.index t 1 * 288 + 1 * s.val = s.val; rw [h1]; omega
  | ⟨2, _⟩ => show win0_0.index t 2 * 4096 + 1 * n.val = n.val; rw [h2]; omega

/-- What the two accumulators hold after grid point `n`: the totals and the counts of batch rows `0 … n`, added up.
    By induction on the point: the first point leaves the first row's total and count, every later point adds its own
    row's to what the point before left. -/
theorem running (c : Dev nD) : ∀ (n : ℕ) (h : n < cfg0.N),
    outsAt0 V c n h
      = ((fun _ => ∑ k ∈ Finset.range (n + 1), rowTotal (rowNat V c k) : Vec Ideal S1x1 .f32),
         (fun _ => ∑ k ∈ Finset.range (n + 1), rowCount (rowNat V c k) : Vec Ideal S1x1 .f32))
  | 0, h => by
    rw [outsAt0_A V c ⟨0, h⟩ rfl, first_total, first_count, block_row]
    simp only [Nat.zero_add, Finset.sum_range_one]
  | n + 1, h => by
    have hN : cfg0.N = 16 := N_0
    have hB : ¬(⟨n + 1, h⟩ : Fin cfg0.N).val % 16 = 0 := by dsimp only; omega
    have ih := running c n (Nat.lt_of_succ_lt h)
    rw [outsAt0_B V c ⟨n + 1, h⟩ hB]
    dsimp only
    rw [next_total, next_count, block_row]
    show ((fun _ => (outsAt0 V c n (Nat.lt_of_succ_lt h)).1 (ix2 0 0) + rowTotal (rowNat V c (n + 1)) : Vec Ideal S1x1 .f32),
          (fun _ => (outsAt0 V c n (Nat.lt_of_succ_lt h)).2 (ix2 0 0) + rowCount (rowNat V c (n + 1)) : Vec Ideal S1x1 .f32)) = _
    rw [ih, Finset.sum_range_succ _ (n + 1), Finset.sum_range_succ _ (n + 1)]

/-- The sum of the totals of the sixteen batch rows, as the contents of the first output array. -/
abbrev allTotal (c : Dev nD) : Buf (Elt Ideal) ((c : Thread nD τ).loc main_v2_0) :=
  (fun _ => ∑ k ∈ Finset.range 16, rowTotal (rowNat V c k) : Vec Ideal S1x1 .f32)
/-- The sum of the counts of the sixteen batch rows, as the contents of the second output array. -/
abbrev allCount (c : Dev nD) : Buf (Elt Ideal) ((c : Thread nD τ).loc main_v2_1) :=
  (fun _ => ∑ k ∈ Finset.range 16, rowCount (rowNat V c k) : Vec Ideal S1x1 .f32)

/-- The one write-back of the first accumulator, after the last point, writes the sum over all sixteen rows: the block
    is the whole `[1, 1]` array at zero offsets. -/
theorem flushed_total (c : Dev nD) (t : Fin cfg0.N) (hf : (cfg0.win 1).flush t = true) :
    (dat0 V c).flushed 1 t = ((cfg0.win 1).blk t).view.read (Elt Ideal) (allTotal V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, running]
  have hz' : (fun a => win0_1.index t0_15 a * main_v2_0.ty.shape.size a) = fun _ => 0 := funext fun a => by fin_cases a <;> decide
  exact (Memref.read_access_unit_zero (Elt Ideal) main_v2_0 hz' (fun a => by rw [congrFun hz' a]; simp) (allTotal V c)).symm

/-- The same for the second accumulator. -/
theorem flushed_count (c : Dev nD) (t : Fin cfg0.N) (hf : (cfg0.win 2).flush t = true) :
    (dat0 V c).flushed 2 t = ((cfg0.win 2).blk t).view.read (Elt Ideal) (allCount V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, running]
  have hz' : (fun a => win0_2.index t0_15 a * main_v2_1.ty.shape.size a) = fun _ => 0 := funext fun a => by fin_cases a <;> decide
  exact (Memref.read_access_unit_zero (Elt Ideal) main_v2_1 hz' (fun a => by rw [congrFun hz' a]; simp) (allCount V c)).symm

/-- The first output array after the pass: its one written-back block covers the whole `[1, 1]` array. -/
theorem total_array (c : Dev nD) : (dat0 V c).arrAt 1 cfg0.N = allTotal V c :=
  (dat0 V c).arrAt_eq_of_cover 1 (allTotal V c) (flushed_total V c) fun i =>
    ⟨t0_15, (flush0_1 t0_15).mpr rfl, by
      show i ∈ ((View.whole main_v2_0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_15 0 * win0_1.size 0 ≤ (i 0 : Nat) ∧ (i 0 : Nat) < win0_1.index t0_15 0 * win0_1.size 0 + win0_1.xsize (grid0.coords t0_15) 0
        rw [show win0_1.index t0_15 0 * win0_1.size 0 = 0 from by decide +kernel, show win0_1.xsize (grid0.coords t0_15) 0 = 1 from by decide +kernel]; omega
      | ⟨1, _⟩ =>
        show win0_1.index t0_15 1 * win0_1.size 1 ≤ (i 1 : Nat) ∧ (i 1 : Nat) < win0_1.index t0_15 1 * win0_1.size 1 + win0_1.xsize (grid0.coords t0_15) 1
        rw [show win0_1.index t0_15 1 * win0_1.size 1 = 0 from by decide +kernel, show win0_1.xsize (grid0.coords t0_15) 1 = 1 from by decide +kernel]; omega⟩

/-- The second output array after the pass, likewise. -/
theorem count_array (c : Dev nD) : (dat0 V c).arrAt 2 cfg0.N = allCount V c :=
  (dat0 V c).arrAt_eq_of_cover 2 (allCount V c) (flushed_count V c) fun i =>
    ⟨t0_15, (flush0_2 t0_15).mpr rfl, by
      show i ∈ ((View.whole main_v2_1).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

/-- The sum over the row numbers below 16 is the sum over the sixteen batch rows. -/
theorem sum_rows (f : (Fin 288 → Fin 4096 → EReal) → EReal) (c : Dev nD) :
    ∑ k ∈ Finset.range 16, f (rowNat V c k) = ∑ b : Fin 16, f (rowAt V c b) := by
  rw [← Fin.sum_univ_eq_sum_range (fun k => f (rowNat V c k)) 16]
  exact Finset.sum_congr rfl fun b _ => by rw [rowNat_val]

theorem total_final (c : Dev nD) :
    ((dat0 V c).arrAt 1 cfg0.N : Vec Ideal S1x1 .f32) = fun _ => ∑ b : Fin 16, rowTotal (rowAt V c b) := by
  refine (total_array V c).trans ?_
  funext _
  exact sum_rows V rowTotal c

theorem count_final (c : Dev nD) :
    ((dat0 V c).arrAt 2 cfg0.N : Vec Ideal S1x1 .f32) = fun _ => ∑ b : Fin 16, rowCount (rowAt V c b) := by
  refine (count_array V c).trans ?_
  funext _
  exact sum_rows V rowCount c

end Cert.KernelIdeal.Region0

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Region1Pieces.lean ====
/-
  The second pass's body, read as values. Per batch row the body holds the row `x0` of 288 time steps by 4096 nodes,
  the global mean `g` as the one entry of a `[1, 1]` block, the membership weights and the member counts. It adds,
  from zero, the three column sums of the row's three runs of 96 time steps, a missing entry (one equal to `-1`)
  replaced by `g`, and multiplies by the rational `1/288`: since addition on the extended reals is associative the
  three runs add up to the sum over all 288 steps, so the mean row is `rowMean`. Output 4 repeats the mean row over
  its ten rows; output 5 repeats over ten rows the mean row's product with the weights into a zero accumulator (the
  plain sum over the nodes) divided by the counts floored at one, which is `rowReg`.
-/
import proofs.«426560_j34574486733038_2_alg».proof.Proof.Gen.KernelIdeal.Frame
import proofs.«426560_j34574486733038_2_alg».proof.Proof.Spec
import proofs.«426560_j34574486733038_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.Tactic

noncomputable section

namespace Cert.KernelIdeal.Region1

open Cert.KernelIdeal Cert.KernelIdeal.Gen Cert.RegionMean
open Idealize.ShloMosaic Idealize.ShloMosaic.TcCoe Idealize.ShloMosaic.ValueIdx Idealize.SL.Sem

/-- One batch row as the second pass's input block holds it: entry `(t, n)` of the `[1, 288, 4096]` block. -/
abbrev rowOf (x0 : Vec Ideal S1x288x4096 .f32) : Fin 288 → Fin 4096 → EReal := fun t n => x0 (ix3 0 t n)

/-! ## What the body stores, as terms of the blocks it loads -/

section Stored

variable {F : FTy → Type} [FloatOps F] [Named F]

theorem zero3 : (![0, 0, 0] : Fin 3 → Nat) = fun _ => 0 := funext fun a => by fin_cases a <;> rfl
theorem zero2 : (![0, 0] : Fin 2 → Nat) = fun _ => 0 := funext fun a => by fin_cases a <;> rfl

/-- Ninety-six time steps from step `o` on lie inside the 288 of the row. -/
theorem chunk_inb (o : Nat) (ho : o + 96 ≤ 288) :
    ∀ a : Fin 3, (![0, o, 0] : Fin 3 → Nat) a + (![1, 96, 4096] : Fin 3 → Nat) a ≤ S1x288x4096.size a := fun a =>
  match a with
  | ⟨0, _⟩ => by show 0 + 1 ≤ 1; omega
  | ⟨1, _⟩ => ho
  | ⟨2, _⟩ => by show 0 + 4096 ≤ 4096; omega

/-- The chunk of the row block that holds time steps `o, …, o + 95`, every node: what the body loads. -/
abbrev chunk (x0 : Vec F S1x288x4096 .f32) (o : Nat) (ho : o + 96 ≤ 288) : Vec F S1x96x4096 .f32 :=
  View.ld (Val := Elt F) (e' := .f32) x0 (Rect.unit (s := S1x288x4096) ![0, o, 0] ![1, 96, 4096] (chunk_inb o ho))

/-- Output 4's block after the body: the broadcast mean row of the three chunks' filled sums. -/
theorem stored4 (c : Dev nD) (i : grid1.Coords) (a1 : Memref sig .tc .vmem S1x288x4096 .f32) (h1 : a1.IsWhole) (a2 : Memref sig .tc .vmem S1x1 .f32) (h2 : a2.IsWhole) (a3 : Memref sig .tc .vmem S4096x16 .f32) (h3 : a3.IsWhole) (a4 : Memref sig .tc .vmem S1x16 .f32) (h4 : a4.IsWhole) (a5 : Memref sig .tc .vmem S1x10x4096 .f32) (h5 : a5.IsWhole) (a6 : Memref sig .tc .vmem S1x10x16 .f32) (h6 : a6.IsWhole) (x0 : Vec F S1x288x4096 .f32) (x1 : Vec F S1x1 .f32) (x2 : Vec F S4096x16 .f32) (x3 : Vec F S1x16 .f32) :
    out1_A_4 (F := F) c i a1 h1 a2 h2 a3 h3 a4 h4 a5 h5 a6 h6 x0 x1 x2 x3
      = k1_pay2 (k1_pay5 x1 (chunk x0 0 (by omega)) (chunk x0 96 (by omega))) (k1_pay6 x1 (chunk x0 192 (by omega))) := by
  unfold out1_A_4
  rw [View.read_writes_eq_canon _ _ _ (cover1_A_4 c i a1 h1 a2 h2 a3 h3 a4 h4 a5 h5 a6 h6 x0 x1 x2 x3)]
  unfold kernelRun1_A
  dsimp only
  sl_unfold_words
  rw [View.canon_unit_zero zero3]
  simp only [View.readAt_eq_ld, h1.read_unread, h2.read_unread, View.ld_unit_zero (S := S1x1) zero2]

/-- Output 5's block after the body: the broadcast region means, of the same sums and of the whole weight and count blocks. -/
theorem stored5 (c : Dev nD) (i : grid1.Coords) (a1 : Memref sig .tc .vmem S1x288x4096 .f32) (h1 : a1.IsWhole) (a2 : Memref sig .tc .vmem S1x1 .f32) (h2 : a2.IsWhole) (a3 : Memref sig .tc .vmem S4096x16 .f32) (h3 : a3.IsWhole) (a4 : Memref sig .tc .vmem S1x16 .f32) (h4 : a4.IsWhole) (a5 : Memref sig .tc .vmem S1x10x4096 .f32) (h5 : a5.IsWhole) (a6 : Memref sig .tc .vmem S1x10x16 .f32) (h6 : a6.IsWhole) (x0 : Vec F S1x288x4096 .f32) (x1 : Vec F S1x1 .f32) (x2 : Vec F S4096x16 .f32) (x3 : Vec F S1x16 .f32) :
    out1_A_5 (F := F) c i a1 h1 a2 h2 a3 h3 a4 h4 a5 h5 a6 h6 x0 x1 x2 x3
      = k1_pay3 (k1_pay5 x1 (chunk x0 0 (by omega)) (chunk x0 96 (by omega))) (k1_pay6 x1 (chunk x0 192 (by omega))) x2 x3 := by
  unfold out1_A_5
  rw [View.read_writes_eq_canon _ _ _ (cover1_A_5 c i a1 h1 a2 h2 a3 h3 a4 h4 a5 h5 a6 h6 x0 x1 x2 x3)]
  unfold kernelRun1_A
  dsimp only
  sl_unfold_words
  rw [View.canon_unit_zero zero3]
  simp only [View.readAt_eq_ld, h1.read_unread, h2.read_unread, h3.read_unread, h4.read_unread, View.ld_unit_zero (S := S1x1) zero2,
    View.ld_unit_zero (S := S4096x16) zero2, View.ld_unit_zero (S := S1x16) zero2]

end Stored

/-! ## The stored values read at an index, at the ideal values -/

/-- The named reciprocal is the rational `1/288` the certificate's table gives it. -/
theorem inv_288 : Named.named (F := Ideal) κ "inv_288" (φ := .f32) 0x3B638E39#32 = ((1 / 288 : ℝ) : EReal) :=
  IdealRules.named_const.ideal_named_scalar _ _ _ _ rfl

/-- The scalar the body extracts is the one entry of the `[1, 1]` block. -/
theorem scalar_apply (x1 : Vec Ideal S1x1 .f32) : k1_pay4 (F := Ideal) x1 = x1 (ix2 0 0) := by
  unfold k1_pay4 extractAt
  exact congrArg x1 (funext fun a => Fin.ext (by match a with | ⟨0, _⟩ => rfl | ⟨1, _⟩ => rfl))

/-- An entry of a chunk is the row block's entry at the shifted time step. -/
theorem chunk_apply (x0 : Vec Ideal S1x288x4096 .f32) (o : Nat) (ho : o + 96 ≤ 288) (u : Fin 1) (t : Fin 96) (n : Fin 4096) :
    chunk x0 o ho (ix3 u t n) = x0 (ix3 0 ⟨o + t.val, by omega⟩ n) := by
  refine congrArg x0 (funext fun a => Fin.ext ?_)
  match a with
  | ⟨0, _⟩ => show 0 + 1 * u.val = 0; omega
  | ⟨1, _⟩ => show o + 1 * t.val = o + t.val; omega
  | ⟨2, _⟩ => show 0 + 1 * n.val = n.val; omega

/-- A sum over the 288 time steps is the sum of its three runs of 96. -/
theorem sum_288 {M : Type*} [AddCommMonoid M] (f : Fin 288 → M) :
    ∑ t : Fin 288, f t
      = ((∑ t : Fin 96, f ⟨0 + t.val, by omega⟩) + ∑ t : Fin 96, f ⟨96 + t.val, by omega⟩) + ∑ t : Fin 96, f ⟨192 + t.val, by omega⟩ := by
  have e1 : ∑ t : Fin (96 + 96 + 96), f t
      = ∑ i : Fin (96 + 96), f (Fin.castAdd 96 i) + ∑ i : Fin 96, f (Fin.natAdd (96 + 96) i) :=
    Fin.sum_univ_add (fun t : Fin (96 + 96 + 96) => f t)
  have e2 : ∑ i : Fin (96 + 96), f (Fin.castAdd 96 i)
      = ∑ i : Fin 96, f (Fin.castAdd 96 (Fin.castAdd 96 i)) + ∑ i : Fin 96, f (Fin.castAdd 96 (Fin.natAdd 96 i)) :=
    Fin.sum_univ_add (fun i : Fin (96 + 96) => f (Fin.castAdd 96 i))
  refine (e1.trans (congrArg (· + ∑ i : Fin 96, f (Fin.natAdd (96 + 96) i)) e2)).trans ?_
  refine congrArg₂ (· + ·) (congrArg₂ (· + ·) ?_ ?_) ?_
  · exact Finset.sum_congr rfl fun t _ => congrArg f (Fin.ext (by show t.val = 0 + t.val; omega))
  · exact Finset.sum_congr rfl fun t _ => congrArg f (Fin.ext (by show 96 + t.val = 96 + t.val; rfl))
  · exact Finset.sum_congr rfl fun t _ => congrArg f (Fin.ext (by show 96 + 96 + t.val = 192 + t.val; omega))

/-- One chunk's column sum: at node `n`, the sum over the chunk's 96 time steps of the entries, a missing one replaced by `g`. -/
theorem filled_sum (g : EReal) (v : Vec Ideal S1x96x4096 .f32) (hc : S1x96x4096.ShapeCasts S96x4096) (hr : S96x4096.Reduces [0] S4096)
    (hs : S4096.ShapeCasts S1x4096) (u : Fin 1) (n : Fin 4096) :
    shapeCast S1x4096 (multiReduction (F := Ideal) .add [0] S4096
        (select (cmpf .one (shapeCast S96x4096 v hc) (broadcast S96x4096 (Scalar.ofBits (F := Ideal) .f32 0xBF800000#32)))
          (shapeCast S96x4096 v hc) (broadcast S96x4096 g))
        0x00000000#32 hr (.inl rfl) rfl) hs (ix2 u n)
      = ∑ t : Fin 96, filledWith g (v (ix3 0 t n)) := by
  refine (shapeCast_a_1a_apply _ hs u n).trans ?_
  refine (Ideal.multiReduction_add_single _ 0x00000000#32 hr (.inl rfl) rfl (ix1 n)).trans ?_
  refine Finset.sum_congr rfl fun (t : Fin 96) _ => ?_
  have hl : hr.lift (ix1 n) t = ix2 t n := funext fun a => Fin.ext (by match a with | ⟨0, _⟩ => rfl | ⟨1, _⟩ => rfl)
  have hA : shapeCast S96x4096 v hc (hr.lift (ix1 n) t) = v (ix3 0 t n) := by
    rw [hl]; exact shapeCast_1ab_ab_apply v hc t n
  show Scalar.select (Ideal.cmp .one (shapeCast S96x4096 v hc (hr.lift (ix1 n) t)) negOne) (shapeCast S96x4096 v hc (hr.lift (ix1 n) t)) g = _
  rw [hA]
  rfl

/-- The mean row at node `n`: the three chunks' filled sums added from zero, times `1/288`, is the time mean of the row's
    node `n` under the extracted scalar. Addition on the extended reals is associative, so the three runs of 96 steps
    add up to the sum over all 288. -/
theorem mean_apply (x0 : Vec Ideal S1x288x4096 .f32) (x1 : Vec Ideal S1x1 .f32) (u : Fin 1) (n : Fin 4096) :
    k1_pay1 (F := Ideal) (k1_pay5 x1 (chunk x0 0 (by omega)) (chunk x0 96 (by omega))) (k1_pay6 x1 (chunk x0 192 (by omega))) (ix2 u n)
      = rowMean (rowOf x0) (x1 (ix2 0 0)) n := by
  have hA : k1_pay5 (F := Ideal) x1 (chunk x0 0 (by omega)) (chunk x0 96 (by omega)) (ix2 u n)
      = (Ideal.ofBits .f32 0x00000000#32 + ∑ t : Fin 96, filledWith (k1_pay4 x1) (chunk x0 0 (by omega) (ix3 0 t n)))
          + ∑ t : Fin 96, filledWith (k1_pay4 x1) (chunk x0 96 (by omega) (ix3 0 t n)) := by
    unfold k1_pay5
    exact congrArg₂ (· + ·) (congrArg₂ (· + ·) rfl (filled_sum _ _ _ _ _ u n)) (filled_sum _ _ _ _ _ u n)
  have hB : k1_pay6 (F := Ideal) x1 (chunk x0 192 (by omega)) (ix2 u n)
      = ∑ t : Fin 96, filledWith (k1_pay4 x1) (chunk x0 192 (by omega) (ix3 0 t n)) := by
    unfold k1_pay6
    exact filled_sum _ _ _ _ _ u n
  show (k1_pay5 (F := Ideal) x1 (chunk x0 0 (by omega)) (chunk x0 96 (by omega)) (ix2 u n)
        + k1_pay6 (F := Ideal) x1 (chunk x0 192 (by omega)) (ix2 u n))
      * Named.named (F := Ideal) κ "inv_288" (φ := .f32) 0x3B638E39#32
    = (∑ t : Fin 288, filledWith (x1 (ix2 0 0)) (x0 (ix3 0 t n))) * ((1 / 288 : ℝ) : EReal)
  rw [hA, hB, inv_288, Ideal.ofBits_zero_f32, zero_add, scalar_apply]
  refine congrArg (· * ((1 / 288 : ℝ) : EReal)) ?_
  refine (congrArg₂ (· + ·) (congrArg₂ (· + ·) ?_ ?_) ?_).trans
    (sum_288 (fun t => filledWith (x1 (ix2 0 0)) (x0 (ix3 0 t n)))).symm
  · exact Finset.sum_congr rfl fun t _ => congrArg (filledWith (x1 (ix2 0 0))) (chunk_apply x0 0 (by omega) 0 t n)
  · exact Finset.sum_congr rfl fun t _ => congrArg (filledWith (x1 (ix2 0 0))) (chunk_apply x0 96 (by omega) 0 t n)
  · exact Finset.sum_congr rfl fun t _ => congrArg (filledWith (x1 (ix2 0 0))) (chunk_apply x0 192 (by omega) 0 t n)

/-- Output 4's stored value at `(u, p, n)`: the mean row's entry `n`, whatever the broadcast row `p`. -/
theorem bcast4 (v26 v37 : FVec Ideal S1x4096 .f32) (u : Fin 1) (p : Fin 10) (n : Fin 4096) :
    k1_pay2 (F := Ideal) v26 v37 (ix3 u p n) = k1_pay1 v26 v37 (ix2 0 n) := by
  unfold k1_pay2
  refine (shapeCast_ab_1ab_apply _ _ u p n).trans ?_
  refine (broadcastTo_1b_ab_apply _ _ p n).trans ?_
  rw [shapeCast_self]

/-- Output 5's stored value at `(u, p, r)`: the mean row's weighted sum over the nodes, divided by the count floored at one. -/
theorem bcast5 (v26 v37 : FVec Ideal S1x4096 .f32) (x2 : Vec Ideal S4096x16 .f32) (x3 : Vec Ideal S1x16 .f32)
    (u : Fin 1) (p : Fin 10) (r : Fin 16) :
    k1_pay3 (F := Ideal) v26 v37 x2 x3 (ix3 u p r)
      = Ideal.div (∑ n : Fin 4096, k1_pay1 v26 v37 (ix2 0 n) * x2 (ix2 n r)) (max (x3 (ix2 0 r)) oneW) := by
  unfold k1_pay3
  refine (shapeCast_ab_1ab_apply _ _ u p r).trans ?_
  refine (broadcastTo_1b_ab_apply _ _ p r).trans ?_
  simp only [shapeCast_self]
  refine congrArg₂ Ideal.div ?_ rfl
  exact PlainMatmul.matmul_zero_apply_of_eq (m := 1) (k := 4096) (n := 16) (φ₁ := .f32) (φ₂ := .f32)
    dot_S1x4096_S4096x16_S1x16_1_0_0_1_n_n rfl (some .fp32) (k1_pay1 v26 v37) x2 0 r

/-! ## The two blocks -/

theorem pred_block (c : Dev nD) (i : grid1.Coords) (a1 : Memref sig .tc .vmem S1x288x4096 .f32) (h1 : a1.IsWhole) (a2 : Memref sig .tc .vmem S1x1 .f32) (h2 : a2.IsWhole) (a3 : Memref sig .tc .vmem S4096x16 .f32) (h3 : a3.IsWhole) (a4 : Memref sig .tc .vmem S1x16 .f32) (h4 : a4.IsWhole) (a5 : Memref sig .tc .vmem S1x10x4096 .f32) (h5 : a5.IsWhole) (a6 : Memref sig .tc .vmem S1x10x16 .f32) (h6 : a6.IsWhole) (x0 : Vec Ideal S1x288x4096 .f32) (x1 : Vec Ideal S1x1 .f32) (x2 : Vec Ideal S4096x16 .f32) (x3 : Vec Ideal S1x16 .f32) :
    out1_A_4 (F := Ideal) c i a1 h1 a2 h2 a3 h3 a4 h4 a5 h5 a6 h6 x0 x1 x2 x3
      = fun j => rowMean (rowOf x0) (x1 (ix2 0 0)) (j 2) := by
  funext j
  obtain ⟨u, p, n, rfl⟩ : ∃ (u : Fin 1) (p : Fin 10) (n : Fin 4096), j = ix3 u p n := ⟨j 0, j 1, j 2, eq_ix3 j⟩
  refine (congrFun (stored4 (F := Ideal) c i a1 h1 a2 h2 a3 h3 a4 h4 a5 h5 a6 h6 x0 x1 x2 x3) (ix3 u p n)).trans ?_
  refine (bcast4 _ _ u p n).trans ?_
  exact mean_apply x0 x1 0 n

theorem reg_block (c : Dev nD) (i : grid1.Coords) (a1 : Memref sig .tc .vmem S1x288x4096 .f32) (h1 : a1.IsWhole) (a2 : Memref sig .tc .vmem S1x1 .f32) (h2 : a2.IsWhole) (a3 : Memref sig .tc .vmem S4096x16 .f32) (h3 : a3.IsWhole) (a4 : Memref sig .tc .vmem S1x16 .f32) (h4 : a4.IsWhole) (a5 : Memref sig .tc .vmem S1x10x4096 .f32) (h5 : a5.IsWhole) (a6 : Memref sig .tc .vmem S1x10x16 .f32) (h6 : a6.IsWhole) (x0 : Vec Ideal S1x288x4096 .f32) (x1 : Vec Ideal S1x1 .f32) (x2 : Vec Ideal S4096x16 .f32) (x3 : Vec Ideal S1x16 .f32) :
    out1_A_5 (F := Ideal) c i a1 h1 a2 h2 a3 h3 a4 h4 a5 h5 a6 h6 x0 x1 x2 x3
      = fun j => rowReg (rowOf x0) (x1 (ix2 0 0)) (fun n r => x2 (ix2 n r)) (fun r => x3 (ix2 0 r)) (j 2) := by
  funext j
  obtain ⟨u, p, r, rfl⟩ : ∃ (u : Fin 1) (p : Fin 10) (r : Fin 16), j = ix3 u p r := ⟨j 0, j 1, j 2, eq_ix3 j⟩
  refine (congrFun (stored5 (F := Ideal) c i a1 h1 a2 h2 a3 h3 a4 h4 a5 h5 a6 h6 x0 x1 x2 x3) (ix3 u p r)).trans ?_
  refine (bcast5 _ _ x2 x3 u p r).trans ?_
  exact congrArg₂ Ideal.div (Finset.sum_congr rfl fun n _ => congrArg (· * x2 (ix2 n r)) (mean_apply x0 x1 0 n)) rfl

end Cert.KernelIdeal.Region1

end
-- ==== Proof.Region1Out.lean ====
import proofs.«426560_j34574486733038_2_alg».proof.Proof.Gen.KernelIdeal.Frame
import proofs.«426560_j34574486733038_2_alg».proof.Proof.Spec
import proofs.«426560_j34574486733038_2_alg».proof.Proof.Region1Pieces
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Tactic

set_option maxRecDepth 16384

/-
  The second pass's two output arrays after the region, as functions of the arrays it finds on entry.

  The grid has one point per batch row. Point `t` reads row `t` of the `[16, 288, 4096]` data array and, whole, the
  `[1, 1]`, `[4096, 16]` and `[1, 16]` operands (their one block never moves), and writes back block `t` of each
  output: rows `(t, ·, ·)` of the `[16, 10, 4096]` and of the `[16, 10, 16]` array. So entry `(b, h, n)` of the first
  output is what point `b` stored at `(0, h, n)`: the row mean of row `b`; and likewise the region mean for the second.
  The sixteen blocks tile each array, so every entry is written by exactly the point of its batch row.
-/
noncomputable section

namespace Cert.KernelIdeal.Region1

open Cert.KernelIdeal Cert.KernelIdeal.Gen Cert.RegionMean
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Batch row `b` of the second pass's input array. -/
abbrev rowAt (c : Dev nD) (b : Fin 16) : Fin 288 → Fin 4096 → EReal :=
  fun t n => (V c main_v1 : Vec Ideal S16x288x4096 .f32) (ix3 b t n)

/-- The batch row a grid point works on. -/
def rowIx (t : Fin cfg1.N) : Fin 16 := ⟨t.val, by have := t.isLt; have hN : cfg1.N = 16 := N_1; omega⟩

/-- The block index of every window at every point, decided over the grid: the data and the two outputs move with the
    point along axis 0, the three small operands stay at block zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

/-- The data block at point `t` is row `t` of the data array. -/
theorem blk_row (c : Dev nD) (t : Fin cfg1.N) (tt : Fin 288) (n : Fin 4096) :
    (iblk1 V c 0 t : Vec Ideal S1x288x4096 .f32) (ix3 0 tt n)
      = (V c main_v1 : Vec Ideal S16x288x4096 .f32) (ix3 (rowIx t) tt n) := by
  obtain ⟨e0, e1, e2, -⟩ := idx_facts t
  unfold iblk1
  rw [View.read_apply]
  show (V c main_v1 : Vec Ideal S16x288x4096 .f32) _ = _
  refine congrArg _ ?_
  funext a; apply Fin.ext
  match a with
  | ⟨0, _⟩ => show win1_0.index t (0 : Fin 3) * 1 + 1 * 0 = t.val; omega
  | ⟨1, _⟩ => show win1_0.index t (1 : Fin 3) * 288 + 1 * tt.val = tt.val; omega
  | ⟨2, _⟩ => show win1_0.index t (2 : Fin 3) * 4096 + 1 * n.val = n.val; omega

/-- The `[1, 1]` operand's block is the operand. -/
theorem blk_g (c : Dev nD) (t : Fin cfg1.N) :
    (iblk1 V c 1 t : Vec Ideal S1x1 .f32) (ix2 0 0) = (V c main_v5 : Vec Ideal S1x1 .f32) (ix2 0 0) := by
  obtain ⟨-, -, -, e0, e1, -⟩ := idx_facts t
  unfold iblk1
  rw [View.read_apply]
  show (V c main_v5 : Vec Ideal S1x1 .f32) _ = _
  refine congrArg _ ?_
  funext a; apply Fin.ext
  match a with
  | ⟨0, _⟩ => show win1_1.index t (0 : Fin 2) * 1 + 1 * 0 = 0; omega
  | ⟨1, _⟩ => show win1_1.index t (1 : Fin 2) * 1 + 1 * 0 = 0; omega

/-- The weight operand's block is the operand. -/
theorem blk_w (c : Dev nD) (t : Fin cfg1.N) (n : Fin 4096) (r : Fin 16) :
    (iblk1 V c 2 t : Vec Ideal S4096x16 .f32) (ix2 n r) = (V c main_v12 : Vec Ideal S4096x16 .f32) (ix2 n r) := by
  obtain ⟨-, -, -, -, -, e0, e1, -⟩ := idx_facts t
  unfold iblk1
  rw [View.read_apply]
  show (V c main_v12 : Vec Ideal S4096x16 .f32) _ = _
  refine congrArg _ ?_
  funext a; apply Fin.ext
  match a with
  | ⟨0, _⟩ => show win1_2.index t (0 : Fin 2) * 4096 + 1 * n.val = n.val; omega
  | ⟨1, _⟩ => show win1_2.index t (1 : Fin 2) * 16 + 1 * r.val = r.val; omega

/-- The count operand's block is the operand. -/
theorem blk_k (c : Dev nD) (t : Fin cfg1.N) (r : Fin 16) :
    (iblk1 V c 3 t : Vec Ideal S1x16 .f32) (ix2 0 r) = (V c main_v14 : Vec Ideal S1x16 .f32) (ix2 0 r) := by
  obtain ⟨-, -, -, -, -, -, -, e0, e1, -⟩ := idx_facts t
  unfold iblk1
  rw [View.read_apply]
  show (V c main_v14 : Vec Ideal S1x16 .f32) _ = _
  refine congrArg _ ?_
  funext a; apply Fin.ext
  match a with
  | ⟨0, _⟩ => show win1_3.index t (0 : Fin 2) * 1 + 1 * 0 = 0; omega
  | ⟨1, _⟩ => show win1_3.index t (1 : Fin 2) * 16 + 1 * r.val = r.val; omega

/-- What the first output array holds after the region, and the second. -/
abbrev predArr (c : Dev nD) : Vec Ideal S16x10x4096 .f32 :=
  fun i => rowMean (rowAt V c (i 0)) ((V c main_v5 : Vec Ideal S1x1 .f32) (ix2 0 0)) (i 2)
abbrev regArr (c : Dev nD) : Vec Ideal S16x10x16 .f32 :=
  fun i => rowReg (rowAt V c (i 0)) ((V c main_v5 : Vec Ideal S1x1 .f32) (ix2 0 0))
    (fun n r => (V c main_v12 : Vec Ideal S4096x16 .f32) (ix2 n r))
    (fun r => (V c main_v14 : Vec Ideal S1x16 .f32) (ix2 0 r)) (i 2)

/-- The data block at point `t`, as a row, is row `t` of the data. -/
theorem row_blk (c : Dev nD) (t : Fin cfg1.N) : rowOf (iblk1 V c 0 t) = rowAt V c (rowIx t) :=
  funext fun tt => funext fun n => blk_row V c t tt n

/-- After point `t` the first output's buffer holds row `t`'s means, the second's its region means. -/
theorem outs_at (c : Dev nD) (t : Fin cfg1.N) :
    (outsAt1 V c t).1 = (fun j => rowMean (rowAt V c (rowIx t)) ((V c main_v5 : Vec Ideal S1x1 .f32) (ix2 0 0)) (j 2))
    ∧ (outsAt1 V c t).2 = (fun j => rowReg (rowAt V c (rowIx t)) ((V c main_v5 : Vec Ideal S1x1 .f32) (ix2 0 0))
        (fun n r => (V c main_v12 : Vec Ideal S4096x16 .f32) (ix2 n r))
        (fun r => (V c main_v14 : Vec Ideal S1x16 .f32) (ix2 0 r)) (j 2)) := by
  have hw : (fun n r => (iblk1 V c 2 t : Vec Ideal S4096x16 .f32) (ix2 n r))
      = fun n r => (V c main_v12 : Vec Ideal S4096x16 .f32) (ix2 n r) :=
    funext fun n => funext fun r => blk_w V c t n r
  have hk : (fun r => (iblk1 V c 3 t : Vec Ideal S1x16 .f32) (ix2 0 r))
      = fun r => (V c main_v14 : Vec Ideal S1x16 .f32) (ix2 0 r) :=
    funext fun r => blk_k V c t r
  unfold outsAt1
  dsimp only
  constructor
  · refine (pred_block c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t)).trans ?_
    funext j
    show rowMean (rowOf (iblk1 V c 0 t)) ((iblk1 V c 1 t : Vec Ideal S1x1 .f32) (ix2 0 0)) (j 2) = _
    rw [row_blk V c t, blk_g V c t]
  · refine (reg_block c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t)).trans ?_
    funext j
    show rowReg (rowOf (iblk1 V c 0 t)) ((iblk1 V c 1 t : Vec Ideal S1x1 .f32) (ix2 0 0))
      (fun n r => (iblk1 V c 2 t : Vec Ideal S4096x16 .f32) (ix2 n r))
      (fun r => (iblk1 V c 3 t : Vec Ideal S1x16 .f32) (ix2 0 r)) (j 2) = _
    rw [row_blk V c t, blk_g V c t, hw, hk]

/-- What point `t` writes back to the first output is block `t` of `predArr`. -/
theorem pred_flushed (c : Dev nD) (t : Fin cfg1.N) :
    (dat1 V c).flushed 4 t = ((cfg1.win 4).blk t).view.read (Elt Ideal) (predArr V c) := by
  obtain ⟨-, -, -, -, -, -, -, -, -, e0, e1, e2, -⟩ := idx_facts t
  show (cfg1.win 4).cut (grid1.coords t) ((dat1 V c).after 4 t) = _
  rw [after1_4, (outs_at V c t).1]
  funext j
  show rowMean (rowAt V c (rowIx t)) ((V c main_v5 : Vec Ideal S1x1 .f32) (ix2 0 0)) (j 2)
    = rowMean (rowAt V c ((((cfg1.win 4).blk t).view.emb j) 0)) ((V c main_v5 : Vec Ideal S1x1 .f32) (ix2 0 0))
        ((((cfg1.win 4).blk t).view.emb j) 2)
  have h0 : (((cfg1.win 4).blk t).view.emb j) 0 = rowIx t := Fin.ext (by
    show win1_4.index t (0 : Fin 3) * 1 + 1 * (j 0).val = t.val
    have : (j 0).val < 1 := (j 0).isLt
    omega)
  have h2 : (((cfg1.win 4).blk t).view.emb j) 2 = j 2 := Fin.ext (by
    show win1_4.index t (2 : Fin 3) * 4096 + 1 * (j 2).val = (j 2).val
    omega)
  rw [h0, h2]

/-- What point `t` writes back to the second output is block `t` of `regArr`. -/
theorem reg_flushed (c : Dev nD) (t : Fin cfg1.N) :
    (dat1 V c).flushed 5 t = ((cfg1.win 5).blk t).view.read (Elt Ideal) (regArr V c) := by
  obtain ⟨-, -, -, -, -, -, -, -, -, -, -, -, e0, e1, e2⟩ := idx_facts t
  show (cfg1.win 5).cut (grid1.coords t) ((dat1 V c).after 5 t) = _
  rw [after1_5, (outs_at V c t).2]
  funext j
  show rowReg (rowAt V c (rowIx t)) ((V c main_v5 : Vec Ideal S1x1 .f32) (ix2 0 0))
      (fun n r => (V c main_v12 : Vec Ideal S4096x16 .f32) (ix2 n r))
      (fun r => (V c main_v14 : Vec Ideal S1x16 .f32) (ix2 0 r)) (j 2)
    = rowReg (rowAt V c ((((cfg1.win 5).blk t).view.emb j) 0)) ((V c main_v5 : Vec Ideal S1x1 .f32) (ix2 0 0))
      (fun n r => (V c main_v12 : Vec Ideal S4096x16 .f32) (ix2 n r))
      (fun r => (V c main_v14 : Vec Ideal S1x16 .f32) (ix2 0 r)) ((((cfg1.win 5).blk t).view.emb j) 2)
  have h0 : (((cfg1.win 5).blk t).view.emb j) 0 = rowIx t := Fin.ext (by
    show win1_5.index t (0 : Fin 3) * 1 + 1 * (j 0).val = t.val
    have : (j 0).val < 1 := (j 0).isLt
    omega)
  have h2 : (((cfg1.win 5).blk t).view.emb j) 2 = j 2 := Fin.ext (by
    show win1_5.index t (2 : Fin 3) * 16 + 1 * (j 2).val = (j 2).val
    omega)
  rw [h0, h2]

/-- The point of a batch row. -/
def pointOf (b : Fin 16) : Fin cfg1.N := ⟨b.val, by have hN : cfg1.N = 16 := N_1; have := b.isLt; omega⟩

/-- An index of the first output array lies in the block of its batch row's point: the sixteen blocks tile the array. -/
theorem pred_cover (i : S16x10x4096.Idx) :
    ∃ t : Fin cfg1.N, (cfg1.win 4).flush t = true ∧ i ∈ ((cfg1.win 4).blk t).view.set := by
  refine ⟨pointOf (i 0), flush1_4 _, ?_⟩
  obtain ⟨-, -, -, -, -, -, -, -, -, e0, e1, e2, -⟩ := idx_facts (pointOf (i 0))
  show i ∈ ((View.whole main_v15_0).slice (win1_4.rect (pointOf (i 0)))).set
  rw [View.set_slice_whole, Rect.mem_set_unit]
  intro a
  have h0 : (i 0).val < 16 := (i 0).isLt
  have h1 : (i 1).val < 10 := (i 1).isLt
  have h2 : (i 2).val < 4096 := (i 2).isLt
  match a with
  | ⟨0, _⟩ =>
    show win1_4.index (pointOf (i 0)) (0 : Fin 3) * 1 ≤ (i 0).val ∧ (i 0).val < win1_4.index (pointOf (i 0)) (0 : Fin 3) * 1 + 1
    rw [e0]; show (i 0).val * 1 ≤ (i 0).val ∧ (i 0).val < (i 0).val * 1 + 1; omega
  | ⟨1, _⟩ =>
    show win1_4.index (pointOf (i 0)) (1 : Fin 3) * 10 ≤ (i 1).val ∧ (i 1).val < win1_4.index (pointOf (i 0)) (1 : Fin 3) * 10 + 10
    omega
  | ⟨2, _⟩ =>
    show win1_4.index (pointOf (i 0)) (2 : Fin 3) * 4096 ≤ (i 2).val ∧ (i 2).val < win1_4.index (pointOf (i 0)) (2 : Fin 3) * 4096 + 4096
    omega

/-- The same for the second output array. -/
theorem reg_cover (i : S16x10x16.Idx) :
    ∃ t : Fin cfg1.N, (cfg1.win 5).flush t = true ∧ i ∈ ((cfg1.win 5).blk t).view.set := by
  refine ⟨pointOf (i 0), flush1_5 _, ?_⟩
  obtain ⟨-, -, -, -, -, -, -, -, -, -, -, -, e0, e1, e2⟩ := idx_facts (pointOf (i 0))
  show i ∈ ((View.whole main_v15_1).slice (win1_5.rect (pointOf (i 0)))).set
  rw [View.set_slice_whole, Rect.mem_set_unit]
  intro a
  have h0 : (i 0).val < 16 := (i 0).isLt
  have h1 : (i 1).val < 10 := (i 1).isLt
  have h2 : (i 2).val < 16 := (i 2).isLt
  match a with
  | ⟨0, _⟩ =>
    show win1_5.index (pointOf (i 0)) (0 : Fin 3) * 1 ≤ (i 0).val ∧ (i 0).val < win1_5.index (pointOf (i 0)) (0 : Fin 3) * 1 + 1
    rw [e0]; show (i 0).val * 1 ≤ (i 0).val ∧ (i 0).val < (i 0).val * 1 + 1; omega
  | ⟨1, _⟩ =>
    show win1_5.index (pointOf (i 0)) (1 : Fin 3) * 10 ≤ (i 1).val ∧ (i 1).val < win1_5.index (pointOf (i 0)) (1 : Fin 3) * 10 + 10
    omega
  | ⟨2, _⟩ =>
    show win1_5.index (pointOf (i 0)) (2 : Fin 3) * 16 ≤ (i 2).val ∧ (i 2).val < win1_5.index (pointOf (i 0)) (2 : Fin 3) * 16 + 16
    omega

/-- The first output array ends holding, at `(b, h, n)`, the time mean of node `n` in row `b`. -/
theorem pred_final (c : Dev nD) :
    ((dat1 V c).arrAt 4 cfg1.N : Vec Ideal S16x10x4096 .f32)
      = fun i => rowMean (rowAt V c (i 0)) ((V c main_v5 : Vec Ideal S1x1 .f32) (ix2 0 0)) (i 2) :=
  (dat1 V c).arrAt_eq_of_cover 4 (predArr V c) (fun t _ => pred_flushed V c t) (pred_cover)

/-- The second output array ends holding, at `(b, h, r)`, the region mean of region `r` in row `b`. -/
theorem reg_final (c : Dev nD) :
    ((dat1 V c).arrAt 5 cfg1.N : Vec Ideal S16x10x16 .f32)
      = fun i => rowReg (rowAt V c (i 0)) ((V c main_v5 : Vec Ideal S1x1 .f32) (ix2 0 0))
          (fun n r => (V c main_v12 : Vec Ideal S4096x16 .f32) (ix2 n r))
          (fun r => (V c main_v14 : Vec Ideal S1x16 .f32) (ix2 0 r)) (i 2) :=
  (dat1 V c).arrAt_eq_of_cover 5 (regArr V c) (fun t _ => reg_flushed V c t) (reg_cover)

end Cert.KernelIdeal.Region1

end
-- ==== Proof.KernelValue.lean ====
/-
  The first program's two result arrays as functions of its arguments.

  The second pass leaves in its first output array, at `(b, h, n)`, the time mean of node `n` in batch `b` under the
  value its `[1, 1]` operand holds, and in its second, at `(b, h, r)`, the weighted region mean under its weight and
  count operands. Between the passes the host divides the first pass's total by `max count 1`, compares every node's
  id with the sixteen region words and sums the comparison's columns; so those operands are the global mean, the
  membership weights and the member counts of the specification, and the arrays are `tmean` and `regmean` of the
  arguments.
-/
import proofs.«426560_j34574486733038_2_alg».proof.Proof.KernelRun
import proofs.«426560_j34574486733038_2_alg».proof.Proof.Glue
import proofs.«426560_j34574486733038_2_alg».proof.Proof.Region0Sum
import proofs.«426560_j34574486733038_2_alg».proof.Proof.Region1Out

set_option maxRecDepth 16384

noncomputable section

namespace Cert.KernelIdeal.KValue

open Cert.KernelIdeal Cert.KernelIdeal.Gen Cert.RegionMean Cert.KernelIdeal.Glue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The rows the first pass sums are the rows of the data. -/
theorem rows0 (c : Dev nD) (b : Fin 16) : Region0.rowAt (V1 m ρ) c b = dataOf m c b :=
  funext fun t => funext fun n => entry0_data m ρ c b t n

/-- The rows the second pass averages are the rows of the data: nothing between the passes writes that array. -/
theorem rows1 (c : Dev nD) (b : Fin 16) : Region1.rowAt (V3 m ρ) c b = dataOf m c b := by
  funext t n
  show (V3 m ρ c main_v1 : Vec Ideal S16x288x4096 .f32) (ix3 b t n) = _
  rw [entry1_data m ρ c]
  exact entry0_data m ρ c b t n

/-- The second pass's `[1, 1]` operand is the global mean of the data. -/
theorem gmean_entry (c : Dev nD) : (V3 m ρ c main_v5 : Vec Ideal S1x1 .f32) (ix2 0 0) = gmean (dataOf m c) := by
  rw [entry1_gmean m ρ c, Region0.total_final (V1 m ρ) c, Region0.count_final (V1 m ρ) c]
  simp only [rows0 m ρ c]
  rfl

theorem result_pred (c : Dev nD) :
    ((dat1 (V3 m ρ) c).arrAt 4 cfg1.N : Vec Ideal S16x10x4096 .f32) = fun i => tmean (dataOf m c) (i 0) (i 2) := by
  rw [Region1.pred_final (V3 m ρ) c]
  funext i
  show rowMean (Region1.rowAt (V3 m ρ) c (i 0)) ((V3 m ρ c main_v5 : Vec Ideal S1x1 .f32) (ix2 0 0)) (i 2) = _
  rw [rows1 m ρ c (i 0), gmean_entry m ρ c]
  rfl

theorem result_reg (c : Dev nD) :
    ((dat1 (V3 m ρ) c).arrAt 5 cfg1.N : Vec Ideal S16x10x16 .f32)
      = fun i => regmean (dataOf m c) (idsOf m c) (i 0) (i 2) := by
  rw [Region1.reg_final (V3 m ρ) c]
  funext i
  show rowReg (Region1.rowAt (V3 m ρ) c (i 0)) ((V3 m ρ c main_v5 : Vec Ideal S1x1 .f32) (ix2 0 0))
      (fun n r => (V3 m ρ c main_v12 : Vec Ideal S4096x16 .f32) (ix2 n r))
      (fun r => (V3 m ρ c main_v14 : Vec Ideal S1x16 .f32) (ix2 0 r)) (i 2) = _
  rw [rows1 m ρ c (i 0), gmean_entry m ρ c,
    show (fun n r => (V3 m ρ c main_v12 : Vec Ideal S4096x16 .f32) (ix2 n r)) = member (idsOf m c) from
      funext fun n => funext fun r => entry1_member m ρ c n r,
    show (fun r => (V3 m ρ c main_v14 : Vec Ideal S1x16 .f32) (ix2 0 r)) = members (idsOf m c) from
      funext fun r => entry1_members m ρ c r]
  rfl

end Cert.KernelIdeal.KValue

end
-- ==== Proof.RefValue.lean ====
/-
  The reference program read at an index, and brought to the specification's form.

  The reference takes feature 0 of the input, `x b t n`, marks an entry PRESENT when it differs from `-1`, forms the
  global mean of the present entries (their sum over their number, the number replaced by `1` when it is `0`), puts
  that mean in place of every missing entry, and averages over the 288 time steps: the time mean of node `n` in batch
  `b`. Its first result repeats that mean along a horizon axis of length 10, so at `(b, h, n)` it is the time mean
  at `(b, n)` whatever `h` is. Its second result is a mean over regions: for each of the 16 regions it adds, with
  an accumulating scatter, a `1` for each node whose id is the region's word (the region's member count) and the
  node's time mean (the region's sum), and divides the sum by the count, the count replaced by `1` when it is `0`.

  Three facts carry the proof.
  * A sum over all indices of a rank-3 array is the triple sum over its coordinates, and two arrays of the same
    row-major length agree entry by entry at equal row-major positions: this reads the reshapes, the ones through a
    rank-6 array included, and turns the reference's total sums into the specification's sums over batch, time and node.
  * Division by the word `288.0` is multiplication by the exact rational `1/288`, because `288` is a real other than `0`.
  * An update of the scatter lands at a result index exactly when, on every axis, its start (the node's id read as a
    signed number, on the region axis; `0` on the others) plus its window coordinate is that index's coordinate. For a
    region number below 16 the id read signed is that number exactly when the id is the region's word, so the
    scatter's sum over the updates that land at region `r` is the sum over ALL nodes of the update times the
    membership weight, which is `1` or `0`; `x * 1 = x` and `x * 0 = 0` hold for every extended real, so nothing
    here asks the data to be finite.
-/
import proofs.«426560_j34574486733038_2_alg».proof.Defs
import proofs.«426560_j34574486733038_2_alg».proof.Proof.Gen.ReferenceIdeal.Run
import proofs.«426560_j34574486733038_2_alg».proof.Proof.Gen.ReferenceIdeal.Read
import proofs.«426560_j34574486733038_2_alg».proof.Proof.Spec
import Idealize.ShloMosaic.Lib.ValueIdx
import Idealize.ShloMosaic.Lib.ValueIdxRank6
import Idealize.ShloMosaic.Lib.IdealHost
import Idealize.ShloMosaic.Lib.StableHlo.Predicate
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Cert.RegionMean
open Idealize.ShloMosaic Idealize.ShloMosaic.TcCoe Idealize.ShloMosaic.ValueIdx Idealize.SL.Sem

/-- Feature 0 of the input array as data `x b t n`, and the id array as `cid n`. -/
abbrev dataOf (x0 : (⟨S16x288x4096x2, .f32⟩ : BufTy).Contents (Elt Ideal)) : Fin 16 → Fin 288 → Fin 4096 → EReal :=
  fun b t n => x0 (ix4 b t n 0)
abbrev idsOf (x1 : (⟨S4096, .i32⟩ : BufTy).Contents (Elt Ideal)) : Fin 4096 → BitVec 32 := fun n => x1 (ix1 n)

/-! ## Sums over the index set of a rank-1 and of a rank-3 array -/

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The divisor of the time mean -/

/-- The word `0x43900000` denotes the real `288`: sign `+`, exponent `135 - 127 = 8`, significand `1.125`. -/
theorem ofBits_288 : Ideal.ofBits .f32 0x43900000#32 = ((288 : ℝ) : EReal) := by
  simp [Ideal.ofBits, Ideal.ieee, -EReal.coe_mul]; norm_num

/-! ## Where an update of an accumulating scatter lands -/

/-- An update lands at operand index `i` exactly when, on every axis, its start plus its window coordinate is `i`'s
    coordinate: the sum is then inside the operand, and it names `i`. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have e := Option.some.inj h
      have ea := congrArg (fun f => (f a).val) e
      simp only at ea
      have := hh a
      omega
    · exact absurd h (by simp)
  · intro h
    rw [dif_pos (fun a => by have := h a; have := (i a).isLt; omega)]
    refine congrArg some (funext fun a => Fin.ext ?_)
    have := h a
    show (d.start j idx a + (d.window j a : Int)).toNat = (i a).val
    omega

/-- A 32-bit word read signed is the region number `r` (below 16) exactly when it is the word `r`: the word `r` read
    signed is `r`, and reading signed is injective. -/
theorem toInt_eq_region_iff (w : BitVec 32) (r : Fin 16) :
    w.toInt = (r.val : Int) ↔ IntOp.cmpi .eq w (BitVec.ofNat 32 r.val) = 1#1 := by
  have hr : (BitVec.ofNat 32 r.val).toInt = (r.val : Int) :=
    StableHlo.Predicate.toInt_ofNat_small r.val (by have := r.isLt; omega)
  rw [StableHlo.Predicate.cmpi_eq_iff]
  constructor
  · intro h; exact BitVec.toInt_inj.mp (h.trans hr.symm)
  · intro h; rw [h, hr]

/-- The count scatter's dimension numbers: one update per node, no window axis; the region axis is indexed by the id. -/
abbrev cntDims := scatter_S16_S4096x1_S4096_n_0_0_1
/-- The sum scatter's: an update per node, batch and horizon step; batch and horizon are window axes, the region axis
    is indexed by the id. -/
abbrev sumDims := scatter_S16x16x10_S4096x1_S4096x16x10_12_0_0_1

/-- The count scatter has no window axis: the window coordinate is `0`. -/
theorem cntDims_window (j : S4096.Idx) (a : Fin S16.rank) : cntDims.window j a = 0 := by
  obtain rfl : a = 0 := Subsingleton.elim _ _
  unfold ScatterDims.window
  rw [dif_neg (by decide)]

/-- Its start on the region axis is the id of the update's node, read signed. -/
theorem cntDims_start (j : S4096.Idx) (idx : IVec S4096x1 32) (a : Fin S16.rank) :
    cntDims.start j idx a = (idx (ix2 (j 0) 0)).toInt := by
  obtain rfl : a = 0 := Subsingleton.elim _ _
  unfold ScatterDims.start
  rw [dif_pos (show (0 : Fin 1) ∈ cntDims.scatterDimsToOperandDims from List.mem_singleton.mpr rfl)]
  refine congrArg (fun k => (idx k).toInt) ?_
  funext b; refine Fin.ext ?_
  match b with
  | ⟨0, _⟩ => rfl
  | ⟨1, _⟩ => rfl

/-- The sum scatter's window coordinates: none on the region axis, the update's batch and horizon coordinates on the
    other two. -/
theorem sumDims_window0 (j : S4096x16x10.Idx) : sumDims.window j 0 = 0 := by
  unfold ScatterDims.window
  rw [dif_neg (by decide)]
theorem sumDims_window1 (j : S4096x16x10.Idx) : sumDims.window j 1 = (j 1).val := by
  unfold ScatterDims.window
  rw [dif_pos (by decide)]
  rfl
theorem sumDims_window2 (j : S4096x16x10.Idx) : sumDims.window j 2 = (j 2).val := by
  unfold ScatterDims.window
  rw [dif_pos (by decide)]
  rfl

/-- Its starts: the node's id read signed on the region axis, `0` on the batch and horizon axes. -/
theorem sumDims_start0 (j : S4096x16x10.Idx) (idx : IVec S4096x1 32) :
    sumDims.start j idx 0 = (idx (ix2 (j 0) 0)).toInt := by
  unfold ScatterDims.start
  rw [dif_pos (show (0 : Fin 3) ∈ sumDims.scatterDimsToOperandDims from List.mem_singleton.mpr rfl)]
  refine congrArg (fun k => (idx k).toInt) ?_
  funext b; refine Fin.ext ?_
  match b with
  | ⟨0, _⟩ => rfl
  | ⟨1, _⟩ => rfl
theorem sumDims_start1 (j : S4096x16x10.Idx) (idx : IVec S4096x1 32) : sumDims.start j idx 1 = 0 := by
  unfold ScatterDims.start
  rw [dif_neg (by decide)]
theorem sumDims_start2 (j : S4096x16x10.Idx) (idx : IVec S4096x1 32) : sumDims.start j idx 2 = 0 := by
  unfold ScatterDims.start
  rw [dif_neg (by decide)]

/-- The count scatter: node `n`'s update lands at region `r` exactly when the node's id is the word `r`. -/
theorem cntDims_hit (idx : IVec S4096x1 32) (n : Fin 4096) (r : Fin 16) :
    cntDims.resultIdx? (ix1 n) idx = some (ix1 r) ↔ IntOp.cmpi .eq (idx (ix2 n 0)) (BitVec.ofNat 32 r.val) = 1#1 := by
  rw [resultIdx?_eq_some_iff, ← toInt_eq_region_iff]
  constructor
  · intro h
    have h0 := h 0
    rw [cntDims_start, cntDims_window] at h0
    simpa using h0
  · intro h a
    obtain rfl : a = 0 := Subsingleton.elim _ _
    rw [cntDims_start, cntDims_window]
    simpa using h

/-- The sum scatter: update `(n, b, h)` lands at `(r, b', h')` exactly when the node's id is the word `r` and
    `(b, h) = (b', h')`. -/
theorem sumDims_hit (idx : IVec S4096x1 32) (n : Fin 4096) (b b' : Fin 16) (h h' : Fin 10) (r : Fin 16) :
    sumDims.resultIdx? (ix3 n b h) idx = some (ix3 r b' h')
      ↔ IntOp.cmpi .eq (idx (ix2 n 0)) (BitVec.ofNat 32 r.val) = 1#1 ∧ b = b' ∧ h = h' := by
  rw [resultIdx?_eq_some_iff, ← toInt_eq_region_iff]
  constructor
  · intro hh
    have h0 := hh 0
    have h1 := hh 1
    have h2 := hh 2
    rw [sumDims_start0, sumDims_window0] at h0
    rw [sumDims_start1, sumDims_window1] at h1
    rw [sumDims_start2, sumDims_window2] at h2
    refine ⟨by simpa using h0, Fin.ext ?_, Fin.ext ?_⟩
    · have : ((b.val : Int)) = (b'.val : Int) := by simpa using h1
      omega
    · have : ((h.val : Int)) = (h'.val : Int) := by simpa using h2
      omega
  · rintro ⟨h0, rfl, rfl⟩ a
    match a with
    | ⟨0, _⟩ => show sumDims.start _ idx 0 + (sumDims.window _ 0 : Int) = _; rw [sumDims_start0, sumDims_window0]; simpa using h0
    | ⟨1, _⟩ => show sumDims.start _ idx 1 + (sumDims.window _ 1 : Int) = _; rw [sumDims_start1, sumDims_window1]; simp
    | ⟨2, _⟩ => show sumDims.start _ idx 2 + (sumDims.window _ 2 : Int) = _; rw [sumDims_start2, sumDims_window2]; simp

/-- The membership weight is `1` when the node's id is the region's word and `0` otherwise. -/
theorem member_eq_ite (cid : Fin 4096 → BitVec 32) (n : Fin 4096) (r : Fin 16) :
    member cid n r = if IntOp.cmpi .eq (cid n) (BitVec.ofNat 32 r.val) = 1#1 then 1 else 0 := by
  unfold member
  rcases BitVec.eq_zero_or_eq_one (IntOp.cmpi .eq (cid n) (BitVec.ofNat 32 r.val)) with h | h
  · rw [h, if_neg (by decide)]; simp
  · rw [h, if_pos rfl]; simp

/-! ## The data, the presence mask and the two means at an index -/

section Data
variable (x0 : (⟨S16x288x4096x2, .f32⟩ : BufTy).Contents (Elt Ideal))

/-- Entry `(b, t, n)` of feature 0 sits at `(b, t, n, 0)` of the input: the slice keeps the first three coordinates,
    and the reshape that drops the unit axis keeps the row-major position `(b * 288 + t) * 4096 + n`. -/
theorem idx_data (b : Fin 16) (t : Fin 288) (n : Fin 4096) :
    idx_main_v0 (idx_main_v1 (ix3 b t n)) = ix4 b t n 0 := by
  funext a; refine Fin.ext ?_
  have hb := b.isLt; have ht := t.isLt; have hn := n.isLt
  match a with
  | ⟨0, _⟩ => show ((b.val * 288 + t.val) * 4096 + n.val) / 1179648 = b.val; omega
  | ⟨1, _⟩ => show ((b.val * 288 + t.val) * 4096 + n.val) / 4096 % 288 = t.val; omega
  | ⟨2, _⟩ => show ((b.val * 288 + t.val) * 4096 + n.val) / 1 % 4096 = n.val; omega
  | ⟨3, _⟩ => rfl

theorem data_at (b : Fin 16) (t : Fin 288) (n : Fin 4096) :
    val_main_v1 (F := Ideal) x0 (ix3 b t n) = x0 (ix4 b t n 0) := by
  rw [val_main_v1_apply, val_main_v0_apply, idx_data]

/-- The mask is the presence bit: "not equal", ordered or not, is one test on the extended reals. -/
theorem ok_at (b : Fin 16) (t : Fin 288) (n : Fin 4096) :
    val_main_v3 (F := Ideal) x0 (ix3 b t n) = ok (x0 (ix4 b t n 0)) := by
  rw [val_main_v3_apply, data_at, val_main_v2_apply, val_main_cst_apply]
  rfl

theorem kept_at (b : Fin 16) (t : Fin 288) (n : Fin 4096) :
    val_main_v4 (F := Ideal) x0 (ix3 b t n) = kept (x0 (ix4 b t n 0)) := by
  rw [val_main_v4_apply, ok_at, data_at, val_main_call0_v1_apply, val_main_call0_v0_apply, val_main_cst_0_apply]
  rfl

/-- The mask as a float is the bit's value, `1` or `0`. -/
theorem present_at (b : Fin 16) (t : Fin 288) (n : Fin 4096) :
    val_main_v6 (F := Ideal) x0 (ix3 b t n) = present (x0 (ix4 b t n 0)) := by
  rw [val_main_v6_apply, ok_at]
  rfl

/-- The global mean: both total sums start from the zero word, which is `0`, and run over every `(b, t, n)`. -/
theorem gmean_at (i : S_.Idx) : val_main_v9 (F := Ideal) x0 i = gmean (dataOf x0) := by
  rw [val_main_v9_apply, val_main_v5_apply, val_main_v8_apply, val_main_v7_apply, val_main_cst_1_apply,
    val_main_cst_2_apply, val_main_cst_3_apply]
  simp only [Ideal.hostDivf_def, Ideal.maximumf_def, Ideal.ofBits_def, Ideal.ofBits_zero_f32, zero_add]
  rw [sum_idx3, sum_idx3]
  simp only [kept_at, present_at]
  rfl

theorem filled_at (b : Fin 16) (t : Fin 288) (n : Fin 4096) :
    val_main_v10 (F := Ideal) x0 (ix3 b t n) = filledWith (gmean (dataOf x0)) (x0 (ix4 b t n 0)) := by
  rw [val_main_v10_apply, ok_at, data_at, val_main_call1_v0_apply, gmean_at]
  rfl

theorem timeSum_at (b : Fin 16) (n : Fin 4096) :
    val_main_v11 (F := Ideal) x0 (ix2 b n) = ∑ t : Fin 288, filledWith (gmean (dataOf x0)) (x0 (ix4 b t n 0)) := by
  rw [val_main_v11_apply, val_main_cst_4_apply]
  simp only [Ideal.ofBits_def, Ideal.ofBits_zero_f32, zero_add]
  refine Finset.sum_congr rfl fun t _ => ?_
  rw [show idx_main_v11 (ix2 b n) t = ix3 b t n from
    funext fun a => Fin.ext (by match a with | ⟨0, _⟩ => rfl | ⟨1, _⟩ => rfl | ⟨2, _⟩ => rfl), filled_at]

/-- The time mean at `(b, n)`: the sum over the 288 steps divided by the word `288`, which is the sum times `1/288`. -/
theorem tmean_at (b : Fin 16) (n : Fin 4096) :
    val_main_v14 (F := Ideal) x0 (ix3 b 0 n) = tmean (dataOf x0) b n := by
  rw [val_main_v14_apply, val_main_v12_apply, val_main_v13_apply, val_main_cst_5_apply]
  rw [show idx_main_v12 (ix3 b (0 : Fin 1) n) = ix2 b n from
    funext fun a => Fin.ext (by match a with | ⟨0, _⟩ => rfl | ⟨1, _⟩ => rfl), timeSum_at]
  simp only [Ideal.hostDivf_def, Ideal.ofBits_def, ofBits_288]
  rw [Ideal.div_coe (by norm_num)]
  rfl

/-- The reshape to rank 6 keeps the row-major position: `(0, b, 0, 0, 0, n)` and `(b, 0, n)` both sit at `b * 4096 + n`. -/
theorem tmean_rank6_at (b : Fin 16) (n : Fin 4096) :
    val_main_v15 (F := Ideal) x0 (ix6 0 b 0 0 0 n) = val_main_v14 (F := Ideal) x0 (ix3 b 0 n) := by
  unfold val_main_v15
  generalize val_main_v14 (F := Ideal) x0 = y
  refine shapeCast_apply y _ _ _ ?_
  rw [Shape.rowMajor_val_three, Shape.rowMajor_val_six]
  have hb := b.isLt; have hn := n.isLt
  show (b.val * 1 + 0) * 4096 + n.val = ((((0 * 16 + b.val) * 1 + 0) * 1 + 0) * 1 + 0) * 4096 + n.val
  omega

/-- The first result at `(b, h, n)`: the reshape back to rank 3 keeps the position `(b * 10 + h) * 4096 + n`, and the
    broadcast along the horizon axis reads the entry at horizon coordinate `0`, so `h` drops out. -/
theorem pred_at (b : Fin 16) (h : Fin 10) (n : Fin 4096) :
    val_main_v17 (F := Ideal) x0 (ix3 b h n) = val_main_v15 (F := Ideal) x0 (ix6 0 b 0 0 0 n) := by
  have e : val_main_v17 (F := Ideal) x0 (ix3 b h n) = val_main_v16 (F := Ideal) x0 (ix6 0 b h 0 0 n) := by
    unfold val_main_v17
    generalize val_main_v16 (F := Ideal) x0 = y
    refine shapeCast_apply y _ _ _ ?_
    rw [Shape.rowMajor_val_three, Shape.rowMajor_val_six]
    have hb := b.isLt; have hh := h.isLt; have hn := n.isLt
    show ((((0 * 16 + b.val) * 10 + h.val) * 1 + 0) * 1 + 0) * 4096 + n.val = (b.val * 10 + h.val) * 4096 + n.val
    omega
  rw [e, val_main_v16_apply]
  refine congrArg (val_main_v15 (F := Ideal) x0) ?_
  funext a; refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

end Data

/-! ## The two scatters and the region mean at an index -/

section Regions
variable (x0 : (⟨S16x288x4096x2, .f32⟩ : BufTy).Contents (Elt Ideal)) (x1 : (⟨S4096, .i32⟩ : BufTy).Contents (Elt Ideal))

/-- The scatter indices of either scatter at `(n, 0)` are node `n`'s id. -/
theorem cntIds_at (n : Fin 4096) : val_main_v20 (F := Ideal) x1 (ix2 n 0) = idsOf x1 n := by
  rw [val_main_v20_apply]
  exact congrArg x1 (funext fun a => Fin.ext (by match a with | ⟨0, _⟩ => rfl))
theorem sumIds_at (n : Fin 4096) : val_main_v24 (F := Ideal) x1 (ix2 n 0) = idsOf x1 n := by
  rw [val_main_v24_apply]
  exact congrArg x1 (funext fun a => Fin.ext (by match a with | ⟨0, _⟩ => rfl))

/-- The count scatter at region `r`: `0` plus a `1` for each node whose update lands there, that is, the sum over all
    nodes of the membership weight. -/
theorem members_at (r : Fin 16) : val_main_v21 (F := Ideal) x1 (ix1 r) = members (idsOf x1) r := by
  unfold val_main_v21
  simp only [Host.scatterAdd, Ideal.hostScatterAdd_def]
  unfold Ideal.hostScatterAdd
  rw [val_main_v19_apply, val_main_cst_7_apply, Finset.sum_filter, sum_idx1]
  simp only [Ideal.ofBits_def, Ideal.ofBits_zero_f32, zero_add]
  unfold members
  refine Finset.sum_congr rfl fun n _ => ?_
  rw [val_main_v18_apply, val_main_cst_6_apply, member_eq_ite]
  simp only [Ideal.ofBits_def, Ideal.ofBits_one_f32]
  by_cases hq : IntOp.cmpi .eq (idsOf x1 n) (BitVec.ofNat 32 r.val) = 1#1
  · rw [if_pos hq, if_pos ((cntDims_hit _ n r).mpr (by rw [cntIds_at]; exact hq))]
  · rw [if_neg hq, if_neg (fun hp => hq (by have := (cntDims_hit _ n r).mp hp; rwa [cntIds_at] at this))]

/-- The update of the sum scatter at `(n, b, h)` is the time mean at `(b, n)`: the transpose reads the first result at
    `(b, h, n)`. -/
theorem update_at (n : Fin 4096) (b : Fin 16) (h : Fin 10) :
    val_main_v22 (F := Ideal) x0 (ix3 n b h) = tmean (dataOf x0) b n := by
  rw [val_main_v22_apply]
  rw [show idx_main_v22 (ix3 n b h) = ix3 b h n from
    funext fun a => Fin.ext (by match a with | ⟨0, _⟩ => rfl | ⟨1, _⟩ => rfl | ⟨2, _⟩ => rfl)]
  rw [pred_at, tmean_rank6_at, tmean_at]

/-- The sum scatter at `(r, b, h)`: of the updates `(n, b', h')` only those with `(b', h') = (b, h)` and node `n` a
    member of `r` land there, so the sum is over the nodes, of the time mean at `(b, n)` times the membership weight. -/
theorem regionSum_at (r b : Fin 16) (h : Fin 10) :
    val_main_v25 (F := Ideal) x0 x1 (ix3 r b h) = ∑ n, tmean (dataOf x0) b n * member (idsOf x1) n r := by
  unfold val_main_v25
  simp only [Host.scatterAdd, Ideal.hostScatterAdd_def]
  unfold Ideal.hostScatterAdd
  rw [val_main_v23_apply, val_main_cst_8_apply, Finset.sum_filter, sum_idx3]
  simp only [Ideal.ofBits_def, Ideal.ofBits_zero_f32, zero_add]
  refine Finset.sum_congr rfl fun n _ => ?_
  rw [member_eq_ite]
  by_cases hq : IntOp.cmpi .eq (idsOf x1 n) (BitVec.ofNat 32 r.val) = 1#1
  · rw [if_pos hq, mul_one]
    rw [Finset.sum_eq_single b, Finset.sum_eq_single h]
    · rw [if_pos ((sumDims_hit _ n b b h h r).mpr ⟨by rw [sumIds_at]; exact hq, rfl, rfl⟩), update_at]
    · intro h' _ hne
      exact if_neg (fun hp => hne ((sumDims_hit _ n b b h' h r).mp hp).2.2)
    · intro hh; exact absurd (Finset.mem_univ _) hh
    · intro b' _ hne
      exact Finset.sum_eq_zero fun h' _ => if_neg (fun hp => hne ((sumDims_hit _ n b' b h' h r).mp hp).2.1)
    · intro hh; exact absurd (Finset.mem_univ _) hh
  · rw [if_neg hq, mul_zero]
    exact Finset.sum_eq_zero fun b' _ => Finset.sum_eq_zero fun h' _ =>
      if_neg (fun hp => hq (by have := ((sumDims_hit _ n b' b h' h r).mp hp).1; rwa [sumIds_at] at this))

/-- The divisor at `(r, b, h)`: the member count of `r`, or `1` when that is smaller, whatever `b` and `h` are. -/
theorem divisor_at (r b : Fin 16) (h : Fin 10) :
    val_main_v29 (F := Ideal) x1 (ix3 r b h) = max (members (idsOf x1) r) oneW := by
  rw [val_main_v29_apply, val_main_v28_apply, val_main_v27_apply, val_main_v26_apply, val_main_cst_9_apply]
  rw [show idx_main_v28 (idx_main_v29 (ix3 r b h)) = ix1 r from
    funext fun a => Fin.ext (by match a with | ⟨0, _⟩ => rfl), members_at]
  rfl

end Regions

/-! ## The reference's two results -/

theorem pred_eq (x0 : (⟨S16x288x4096x2, .f32⟩ : BufTy).Contents (Elt Ideal)) :
    val_main_v17 (F := Ideal) x0 = fun i => tmean (dataOf x0) (i 0) (i 2) := by
  funext i
  obtain ⟨b, h, n, rfl⟩ : ∃ (b : Fin 16) (h : Fin 10) (n : Fin 4096), i = ix3 b h n := ⟨i 0, i 1, i 2, eq_ix3 i⟩
  show val_main_v17 (F := Ideal) x0 (ix3 b h n) = tmean (dataOf x0) b n
  rw [pred_at, tmean_rank6_at, tmean_at]

theorem reg_eq (x0 : (⟨S16x288x4096x2, .f32⟩ : BufTy).Contents (Elt Ideal)) (x1 : (⟨S4096, .i32⟩ : BufTy).Contents (Elt Ideal)) :
    val_main_v31 (F := Ideal) x0 x1 = fun i => regmean (dataOf x0) (idsOf x1) (i 0) (i 2) := by
  funext i
  obtain ⟨b, h, r, rfl⟩ : ∃ (b : Fin 16) (h : Fin 10) (r : Fin 16), i = ix3 b h r := ⟨i 0, i 1, i 2, eq_ix3 i⟩
  show val_main_v31 (F := Ideal) x0 x1 (ix3 b h r) = regmean (dataOf x0) (idsOf x1) b r
  rw [val_main_v31_apply]
  rw [show idx_main_v31 (ix3 b h r) = ix3 r b h from
    funext fun a => Fin.ext (by match a with | ⟨0, _⟩ => rfl | ⟨1, _⟩ => rfl | ⟨2, _⟩ => rfl)]
  rw [val_main_v30_apply, regionSum_at, divisor_at]
  rfl

end Cert.ReferenceIdeal.RefValue

end
-- ==== Proof.lean ====
/-
  Time-mean and region-mean of a traffic tensor with missing entries, in two streaming passes, against the direct
  formula.

  The input is `data[b, t, n, f]` (16 × 288 × 4096 × 2, only feature 0 used) and a cluster id per node. An entry equal
  to `-1` is missing and is replaced by the global mean of the present entries, `total / max count 1`. The first result
  is, for every batch and node, the mean over the 288 time steps, repeated ten times along a horizon axis; the second
  is, for every batch and each of 16 regions, the mean of that value over the nodes whose id is the region, again
  repeated ten times. A node whose id names no region contributes to none.

  The kernel streams the data twice. Pass one adds, batch row by batch row, the present entries and their number into two
  one-word accumulators (three chunks of 96 time steps per row). The host then forms the global mean, the 4096 × 16
  zero-one membership matrix (id compared with the region words) and its column sums. Pass two re-reads each row, fills
  the missing entries, sums over time in the same three chunks, multiplies by the exact rational `1/288` (the kernel's
  folded reciprocal, named so by the certificate's table), and gets the region sums as a product with the membership
  matrix, divided by `max members 1`. The reference computes the same with whole-array sums, a division by `288`, and
  two scatter-additions keyed by the ids.

  Over the extended reals the two agree exactly, and no finiteness is needed: sums are only regrouped (addition is
  commutative and associative there), `x / 288 = x · (1/288)` for every `x`, and a sum weighted by a zero-one matrix
  is the sum over the selected nodes because `x · 1 = x` and `x · 0 = 0` for every `x`, infinite or not; an id outside
  `[0, 16)` matches no region word and is dropped by the scatter alike.
  `preserves` is the one entry of the idealization's ledger: the named reciprocal denotes `1/288`.
-/
import proofs.«426560_j34574486733038_2_alg».proof.Defs
import proofs.«426560_j34574486733038_2_alg».proof.Proof.Gen.Kernel
import proofs.«426560_j34574486733038_2_alg».proof.Proof.Gen.Kernel.Frame
import proofs.«426560_j34574486733038_2_alg».proof.Proof.Gen.KernelIdeal
import proofs.«426560_j34574486733038_2_alg».proof.Proof.Gen.KernelIdeal.Frame
import proofs.«426560_j34574486733038_2_alg».proof.Proof.Gen.ReferenceIdeal
import proofs.«426560_j34574486733038_2_alg».proof.Proof.Gen.ReferenceIdeal.Run
import proofs.«426560_j34574486733038_2_alg».proof.Proof.Gen.ReferenceIdeal.Read
import proofs.«426560_j34574486733038_2_alg».proof.Proof.Gen.Pre_finite_inputs
import proofs.«426560_j34574486733038_2_alg».proof.Proof.KernelValue
import proofs.«426560_j34574486733038_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.RegionMean

section
variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the first result at `tmean` and the second at `regmean` of the same arguments. -/
theorem algebraic : Cert.algebraic_KernelIdeal_ReferenceIdeal := by
  intro m ρ m' ρ' _ hagree
  refine ⟨fun c => fun i => tmean (Cert.KernelIdeal.Glue.dataOf m c) (i 0) (i 2),
    fun c => fun i => regmean (Cert.KernelIdeal.Glue.dataOf m c) (Cert.KernelIdeal.Glue.idsOf m c) (i 0) (i 2), ?_, ?_⟩
  · exact (θ_run Cert.KernelIdeal.defs _ _).mono
      (fun _ h c => ⟨((h c).1.trans (Cert.KernelIdeal.GenP.W4_v15_0 m ρ c)).trans (Cert.KernelIdeal.KValue.result_pred m ρ c),
        ((h c).2.1.trans (Cert.KernelIdeal.GenP.W4_v15_1 m ρ c)).trans (Cert.KernelIdeal.KValue.result_reg m ρ c), (h c).2.2.1, (h c).2.2.2⟩)
      (Cert.KernelIdeal.GenP.run_results (F := Ideal) m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v17_eq, Cert.ReferenceIdeal.RefValue.pred_eq, (hagree c).1]
      rfl
    · rw [(h c).2.1, Cert.ReferenceIdeal.Read.val_main_v31_eq, Cert.ReferenceIdeal.RefValue.reg_eq, (hagree c).1,
        (hagree c).2]
      rfl
end

/-- The ledger's one entry: the certificate's table gives `"inv_288"` the value `1/288`. -/
theorem preserves : Cert.preserves_Kernel_KernelIdeal :=
  IdealRules.named_const.statement Cert.KernelIdeal.κ "inv_288" .f32 0x3B638E39#32 ((1 / 288 : ℝ) : EReal) rfl

theorem claim : Cert.Claim :=
  ⟨Cert.Kernel.Gen.facts, Cert.KernelIdeal.Gen.facts, Cert.ReferenceIdeal.Gen.facts, Cert.Pre_finite_inputs.Gen.facts,
    frame_k (hKernel := Cert.Kernel.Gen.facts) (hPre := Cert.Pre_finite_inputs.Gen.facts),
    frame_ki (hKernelIdeal := Cert.KernelIdeal.Gen.facts) (hPre := Cert.Pre_finite_inputs.Gen.facts),
    frame_ri (hReferenceIdeal := Cert.ReferenceIdeal.Gen.facts) (hPre := Cert.Pre_finite_inputs.Gen.facts),
    preserves,
    algebraic (hKernelIdeal := Cert.KernelIdeal.Gen.facts) (hReferenceIdeal := Cert.ReferenceIdeal.Gen.facts)
      (hPre := Cert.Pre_finite_inputs.Gen.facts)⟩

end Cert.Proof

end
